-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S_ : Shape := ⟨0, ![]⟩

class Facts : Prop where
  bcast_S_S16x64x8192 : S_.BroadcastsInDim S16x64x8192 (![] : Fin 0 → Fin S16x64x8192.rank)
  reducesTo_S16x64x8192_S_d0_1_2 : S16x64x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x64x8192 .f32) (main_arg1 : FVec F S8192x8192 .f32) (main_arg2 : FVec F S128x320 .f32) (main_arg3 : FVec F S128 .f32) : IVec S_ 1 :=
  let main_v0 : FVec F S16x64x8192 .f32 := Host.absf main_arg0
  let main_cst : FVec F S_ .f32 := constant S_ .f32 0x7F800000#32
  let main_v1 : FVec F S16x64x8192 .f32 := broadcastInDim S16x64x8192 ![] bcast_S_S16x64x8192 main_cst
  let main_v2 : IVec S16x64x8192 1 := cmpf .olt main_v0 main_v1
  let main_c : IVec S_ 1 := constantI S_ 1 1#1
  let main_v3 : IVec S_ 1 := (fun x v => Host.reduce IntOp.andi x v reducesTo_S16x64x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x320 .f32 := Host.absf main_arg2
  let main_cst_2 : FVec F S_ .f32 := constant S_ .f32 0x7F800000#32
  let main_v10 : FVec F S128x320 .f32 := broadcastInDim S128x320 ![] bcast_S_S128x320 main_cst_2
  let main_v11 : IVec S128x320 1 := cmpf .olt main_v9 main_v10
  let main_c_3 : IVec S_ 1 := constantI S_ 1 1#1
  let main_v12 : IVec S_ 1 := (fun x v => Host.reduce IntOp.andi x v reducesTo_S128x320_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S8192x16x64 : Shape := ⟨3, ![8192, 16, 64]⟩
abbrev S8192x1024 : Shape := ⟨2, ![8192, 1024]⟩
abbrev S256x8192 : Shape := ⟨2, ![256, 8192]⟩
abbrev S256x1024 : Shape := ⟨2, ![256, 1024]⟩
abbrev S131072x64 : Shape := ⟨2, ![131072, 64]⟩
abbrev S128x64x5 : Shape := ⟨3, ![128, 64, 5]⟩
abbrev S5x64x128 : Shape := ⟨3, ![5, 64, 128]⟩
abbrev S1x128 : Shape := ⟨2, ![1, 128]⟩
abbrev S131072x128 : Shape := ⟨2, ![131072, 128]⟩
abbrev S4096x64 : Shape := ⟨2, ![4096, 64]⟩
abbrev S4096x128 : Shape := ⟨2, ![4096, 128]⟩
abbrev S1x64x128 : Shape := ⟨3, ![1, 64, 128]⟩
abbrev S64x128 : Shape := ⟨2, ![64, 128]⟩
abbrev S8192x16x128 : Shape := ⟨3, ![8192, 16, 128]⟩
abbrev S16x128x8192 : Shape := ⟨3, ![16, 128, 8192]⟩

abbrev nBuf : Space → Nat
  | .hbm => 26
  | .vmem => 42
  | .smem => 0
  | _ => 0

abbrev bufTy : (tb : Table) → Fin (tcTables nBuf tb) → BufTy
  | .hbm, ⟨0, _⟩ => ⟨S16x64x8192, .f32⟩
  | .hbm, ⟨1, _⟩ => ⟨S8192x8192, .f32⟩
  | .hbm, ⟨2, _⟩ => ⟨S128x320, .f32⟩
  | .hbm, ⟨3, _⟩ => ⟨S128, .f32⟩
  | .hbm, ⟨4, _⟩ => ⟨S8192x16x64, .f32⟩
  | .hbm, ⟨5, _⟩ => ⟨S8192x1024, .f32⟩
  | .hbm, ⟨6, _⟩ => ⟨S8192x8192, .bf16⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S131072x64, .f32⟩
  | .hbm, ⟨16, _⟩ => ⟨S131072x64, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S128x64x5, .f32⟩
  | .hbm, ⟨21, _⟩ => ⟨S5x64x128, .f32⟩
  | .hbm, ⟨22, _⟩ => ⟨S1x128, .f32⟩
  | .hbm, ⟨23, _⟩ => ⟨S131072x128, .f32⟩
  | .hbm, ⟨24, _⟩ => ⟨S8192x16x128, .f32⟩
  | .hbm, ⟨25, _⟩ => ⟨S16x128x8192, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x8192, .bf16⟩
  | .local _ .vmem, ⟨8, _⟩ => ⟨S256x8192, .bf16⟩
  | .local _ .vmem, ⟨9, _⟩ => ⟨S8192x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x8192, .bf16⟩
  | .local _ .vmem, ⟨15, _⟩ => ⟨S256x8192, .bf16⟩
  | .local _ .vmem, ⟨16, _⟩ => ⟨S8192x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x8192, .bf16⟩
  | .local _ .vmem, ⟨22, _⟩ => ⟨S256x8192, .bf16⟩
  | .local _ .vmem, ⟨23, _⟩ => ⟨S8192x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S4096x64, .f32⟩
  | .local _ .vmem, ⟨35, _⟩ => ⟨S4096x64, .f32⟩
  | .local _ .vmem, ⟨36, _⟩ => ⟨S4096x64, .f32⟩
  | .local _ .vmem, ⟨37, _⟩ => ⟨S4096x64, .f32⟩
  | .local _ .vmem, ⟨38, _⟩ => ⟨S5x64x128, .f32⟩
  | .local _ .vmem, ⟨39, _⟩ => ⟨S1x128, .f32⟩
  | .local _ .vmem, ⟨40, _⟩ => ⟨S4096x128, .f32⟩
  | .local _ .vmem, ⟨41, _⟩ => ⟨S4096x128, .f32⟩
  | _, _ => ⟨S16x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc4_sem7_0 : DmaSem sig := 40
abbrev cc4_sem7_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4096x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S5x64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4096x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  transposes_S16x64x8192_S8192x16x64_2_0_1 : S16x64x8192.Transposes [2, 0, 1] S8192x16x64
  shapeCasts_S8192x16x64_S8192x1024 : S8192x16x64.ShapeCasts S8192x1024
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S8192x1024_S131072x64 : S8192x1024.ShapeCasts S131072x64
  shapeCasts_S128x320_S128x64x5 : S128x320.ShapeCasts S128x64x5
  transposes_S128x64x5_S5x64x128_2_1_0 : S128x64x5.Transposes [2, 1, 0] S5x64x128
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  inb_S5x64x128_S1x64x128_1_0_0 : ∀ a, (![1, 0, 0] : Fin 3 → Nat) a + S1x64x128.size a ≤ S5x64x128.size a
  inb_S5x64x128_S1x64x128_2_0_0 : ∀ a, (![2, 0, 0] : Fin 3 → Nat) a + S1x64x128.size a ≤ S5x64x128.size a
  inb_S5x64x128_S1x64x128_3_0_0 : ∀ a, (![3, 0, 0] : Fin 3 → Nat) a + S1x64x128.size a ≤ S5x64x128.size a
  inb_S5x64x128_S1x64x128_4_0_0 : ∀ a, (![4, 0, 0] : Fin 3 → Nat) a + S1x64x128.size a ≤ S5x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S131072x128_S8192x16x128 : S131072x128.ShapeCasts S8192x16x128
  transposes_S8192x16x128_S16x128x8192_1_2_0 : S8192x16x128.Transposes [1, 2, 0] S16x128x8192
  dot_S256x8192_S8192x1024_S256x1024_1_0_0_1_n_n_wf : DotDims.WF S256x8192 S8192x1024 S256x1024 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .bf16 = 32 ∨ (Rect.block (s := S8192x8192) S256x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .f32 = 32 ∨ (Rect.block (s := S8192x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .f32 = 32 ∨ (Rect.block (s := S8192x1024) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .bf16 = 32 ∨ (Rect.block (s := S8192x8192) S256x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x1024.size a ≤ S8192x1024.size a
  hwx2_1 : ∀ i : grid2.Coords, EltTy.bits .bf16 = 32 ∨ (Rect.block (s := S8192x1024) S8192x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S8192x1024.size a
  hwx2_2 : ∀ i : grid2.Coords, EltTy.bits .f32 = 32 ∨ (Rect.block (s := S8192x1024) S256x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x1024.size a
  hwx2_3 : ∀ i : grid2.Coords, EltTy.bits .f32 = 32 ∨ (Rect.block (s := S8192x1024) S256x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .bf16 = 32 ∨ (Rect.block (s := S8192x8192) S256x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x1024.size a ≤ S8192x1024.size a
  hwx3_1 : ∀ i : grid3.Coords, EltTy.bits .bf16 = 32 ∨ (Rect.block (s := S8192x1024) S8192x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S8192x1024.size a
  hwx3_2 : ∀ i : grid3.Coords, EltTy.bits .f32 = 32 ∨ (Rect.block (s := S8192x1024) S256x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S8192x1024.size a
  hwx3_3 : ∀ i : grid3.Coords, EltTy.bits .f32 = 32 ∨ (Rect.block (s := S8192x1024) S256x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S131072x64.size a
  hwx4_0 : ∀ i : grid4.Coords, EltTy.bits .f32 = 32 ∨ (Rect.block (s := S131072x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S131072x64.size a
  hwx4_1 : ∀ i : grid4.Coords, EltTy.bits .f32 = 32 ∨ (Rect.block (s := S131072x64) S4096x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S131072x64.size a
  hwx4_2 : ∀ i : grid4.Coords, EltTy.bits .f32 = 32 ∨ (Rect.block (s := S131072x64) S4096x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S131072x64.size a
  hwx4_3 : ∀ i : grid4.Coords, EltTy.bits .f32 = 32 ∨ (Rect.block (s := S131072x64) S4096x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x64.size a ≤ S131072x64.size a
  hwx4_4 : ∀ i : grid4.Coords, EltTy.bits .f32 = 32 ∨ (Rect.block (s := S131072x64) S4096x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S5x64x128.size a ≤ S5x64x128.size a
  hwx4_5 : ∀ i : grid4.Coords, EltTy.bits .f32 = 32 ∨ (Rect.block (s := S5x64x128) S5x64x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x128.size a ≤ S131072x128.size a
  hwx4_7 : ∀ i : grid4.Coords, EltTy.bits .f32 = 32 ∨ (Rect.block (s := S131072x128) S4096x128.size (cc4_transform_7 i) (hinb4_7 i)).WholeWords (EltTy.packing .f32)

variable [Facts₀]

def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8192x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S8192x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v11) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S4096x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v14) S4096x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S4096x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v17) S5x64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v18) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v19) S4096x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S8192x64x16 : Shape := ⟨3, ![8192, 64, 16]⟩
abbrev S8192x1024 : Shape := ⟨2, ![8192, 1024]⟩
abbrev S_ : Shape := ⟨0, ![]⟩
abbrev S1x8192x1024 : Shape := ⟨3, ![1, 8192, 1024]⟩
abbrev S5x8192x1024 : Shape := ⟨3, ![5, 8192, 1024]⟩
abbrev S5x8192x64x16 : Shape := ⟨4, ![5, 8192, 64, 16]⟩
abbrev S16x8192x64x5 : Shape := ⟨4, ![16, 8192, 64, 5]⟩
abbrev S131072x320 : Shape := ⟨2, ![131072, 320]⟩
abbrev S320x128 : Shape := ⟨2, ![320, 128]⟩
abbrev S131072x128 : Shape := ⟨2, ![131072, 128]⟩
abbrev S1x128 : Shape := ⟨2, ![1, 128]⟩
abbrev S16x8192x128 : Shape := ⟨3, ![16, 8192, 128]⟩
abbrev S16x128x8192 : Shape := ⟨3, ![16, 128, 8192]⟩

abbrev nBuf : Space → Nat
  | .hbm => 38
  | .vmem => 0
  | .smem => 0
  | _ => 0

abbrev bufTy : (tb : Table) → Fin (tcTables nBuf tb) → BufTy
  | .hbm, ⟨0, _⟩ => ⟨S16x64x8192, .f32⟩
  | .hbm, ⟨1, _⟩ => ⟨S8192x8192, .f32⟩
  | .hbm, ⟨2, _⟩ => ⟨S128x320, .f32⟩
  | .hbm, ⟨3, _⟩ => ⟨S128, .f32⟩
  | .hbm, ⟨4, _⟩ => ⟨S8192x64x16, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S5x8192x1024, .f32⟩
  | .hbm, ⟨28, _⟩ => ⟨S5x8192x64x16, .f32⟩
  | .hbm, ⟨29, _⟩ => ⟨S16x8192x64x5, .f32⟩
  | .hbm, ⟨30, _⟩ => ⟨S131072x320, .f32⟩
  | .hbm, ⟨31, _⟩ => ⟨S320x128, .f32⟩
  | .hbm, ⟨32, _⟩ => ⟨S131072x128, .f32⟩
  | .hbm, ⟨33, _⟩ => ⟨S1x128, .f32⟩
  | .hbm, ⟨34, _⟩ => ⟨S131072x128, .f32⟩
  | .hbm, ⟨35, _⟩ => ⟨S131072x128, .f32⟩
  | .hbm, ⟨36, _⟩ => ⟨S16x8192x128, .f32⟩
  | .hbm, ⟨37, _⟩ => ⟨S16x128x8192, .f32⟩
  | _, _ => ⟨S16x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  transposes_S16x64x8192_S8192x64x16_2_1_0 : S16x64x8192.Transposes [2, 1, 0] S8192x64x16
  shapeCasts_S8192x64x16_S8192x1024 : S8192x64x16.ShapeCasts S8192x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S1x8192x1024_S5x8192x1024_d0 : Shape.Concatenates [S1x8192x1024, S1x8192x1024, S1x8192x1024, S1x8192x1024, S1x8192x1024] S5x8192x1024 0
  shapeCasts_S5x8192x1024_S5x8192x64x16 : S5x8192x1024.ShapeCasts S5x8192x64x16
  transposes_S5x8192x64x16_S16x8192x64x5_3_1_2_0 : S5x8192x64x16.Transposes [3, 1, 2, 0] S16x8192x64x5
  shapeCasts_S16x8192x64x5_S131072x320 : S16x8192x64x5.ShapeCasts S131072x320
  transposes_S128x320_S320x128_1_0 : S128x320.Transposes [1, 0] S320x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S16x8192x128 : S131072x128.ShapeCasts S16x8192x128
  transposes_S16x8192x128_S16x128x8192_0_2_1 : S16x8192x128.Transposes [0, 2, 1] S16x128x8192
  dot_S8192x8192_S8192x1024_S8192x1024_1_0_0_1_n_n_wf : DotDims.WF S8192x8192 S8192x1024 S8192x1024 [1] [0] [0] [1] [] []
  dot_S131072x320_S320x128_S131072x128_1_0_0_1_n_n_wf : DotDims.WF S131072x320 S320x128 S131072x128 [1] [0] [0] [1] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S131072x320_S320x128_S131072x128_1_0_0_1_n_n : DotDims S131072x320 S320x128 S131072x128 where
  lhsContracting := [1]
  rhsContracting := [0]
  lhsNonContracting := [0]
  rhsNonContracting := [1]
  lhsBatch := []
  rhsBatch := []
  wf := dot_S131072x320_S320x128_S131072x128_1_0_0_1_n_n_wf

class Facts : Prop extends Facts₀ where

variable [Facts]
-- ==== Proof.Spec.lean ====
/-
  The mathematics both programs compute, stated once over literal shapes at the extended reals.

  A graph signal of 8192 vertices is filtered by the first five Chebyshev polynomials of a Laplacian `L`:
  `T₀ x = x`, `T₁ x = L·x`, `Tₖ x = 2·L·Tₖ₋₁ x − Tₖ₋₂ x`. The input holds 16 × 64 such signals (batch × channel);
  the result mixes, per batch entry and vertex, the 64 × 5 filtered values with a 128 × 320 weight matrix whose
  column index is `channel · 5 + order`, and adds a bias.

  `step` is one recurrence step on a whole 8192 × 1024 array of signals (one signal per column);
  `mix` is the five-term weighted sum over the channels of one row, as the kernel accumulates it;
  `cheb` is the recurrence on one signal; `result` is the whole output, index by index.
-/
import Idealize.ShloMosaic.PureOps.Ideal
import Idealize.ShloMosaic.PureOps.Ideal.Laws
import Idealize.ShloMosaic.Lib.ValueIdx

noncomputable section

open scoped BigOperators

namespace Cert.Cheb

open Idealize.ShloMosaic Idealize.ShloMosaic.ValueIdx

abbrev SIn : Shape := ⟨3, ![16, 64, 8192]⟩
abbrev SLap : Shape := ⟨2, ![8192, 8192]⟩
abbrev SWgt : Shape := ⟨2, ![128, 320]⟩
abbrev SBias : Shape := ⟨1, ![128]⟩
abbrev SOut : Shape := ⟨3, ![16, 128, 8192]⟩
abbrev SSig : Shape := ⟨2, ![8192, 1024]⟩
abbrev SRows : Shape := ⟨2, ![131072, 64]⟩
abbrev SWt : Shape := ⟨3, ![5, 64, 128]⟩
abbrev SB2 : Shape := ⟨2, ![1, 128]⟩
abbrev SMix : Shape := ⟨2, ![131072, 128]⟩

/-- The product of the Laplacian with an array of column signals, at row `v` and column `j`. -/
def lapAt (L : SLap.Idx → EReal) (x : SSig.Idx → EReal) (v : Fin 8192) (j : Fin 1024) : EReal :=
  ∑ k : Fin 8192, L (ix2 v k) * x (ix2 k j)

/-- One recurrence step on the whole array: `α · (L · xc) + β · xp`. -/
def step (α β : EReal) (L : SLap.Idx → EReal) (xc xp : SSig.Idx → EReal) : SSig.Idx → EReal :=
  fun i => α * lapAt L xc ⟨(i 0).val, idx2_lt0 i⟩ ⟨(i 1).val, idx2_lt1 i⟩ + β * xp i

theorem step_ix2 (α β : EReal) (L : SLap.Idx → EReal) (xc xp : SSig.Idx → EReal) (v : Fin 8192) (j : Fin 1024) :
    step α β L xc xp (ix2 v j) = α * (∑ k : Fin 8192, L (ix2 v k) * xc (ix2 k j)) + β * xp (ix2 v j) := rfl

/-- The channel sum of one row of signals against one order's 64 × 128 weight slab. -/
def slabAt (a : SRows.Idx → EReal) (wt : SWt.Idx → EReal) (k : Fin 5) (r : Fin 131072) (o : Fin 128) : EReal :=
  ∑ c : Fin 64, a (ix2 r c) * wt (ix3 k c o)

/-- The five slabs accumulated left to right, then the bias: one row of the mixed output. -/
def mix (a0 a1 a2 a3 a4 : SRows.Idx → EReal) (wt : SWt.Idx → EReal) (b2 : SB2.Idx → EReal) : SMix.Idx → EReal :=
  fun i => ((((slabAt a0 wt 0 ⟨(i 0).val, idx2_lt0 i⟩ ⟨(i 1).val, idx2_lt1 i⟩
      + slabAt a1 wt 1 ⟨(i 0).val, idx2_lt0 i⟩ ⟨(i 1).val, idx2_lt1 i⟩)
      + slabAt a2 wt 2 ⟨(i 0).val, idx2_lt0 i⟩ ⟨(i 1).val, idx2_lt1 i⟩)
      + slabAt a3 wt 3 ⟨(i 0).val, idx2_lt0 i⟩ ⟨(i 1).val, idx2_lt1 i⟩)
      + slabAt a4 wt 4 ⟨(i 0).val, idx2_lt0 i⟩ ⟨(i 1).val, idx2_lt1 i⟩)
      + b2 (ix2 0 ⟨(i 1).val, idx2_lt1 i⟩)

theorem mix_ix2 (a0 a1 a2 a3 a4 : SRows.Idx → EReal) (wt : SWt.Idx → EReal) (b2 : SB2.Idx → EReal)
    (r : Fin 131072) (o : Fin 128) :
    mix a0 a1 a2 a3 a4 wt b2 (ix2 r o)
      = ((((slabAt a0 wt 0 r o + slabAt a1 wt 1 r o) + slabAt a2 wt 2 r o) + slabAt a3 wt 3 r o) + slabAt a4 wt 4 r o)
          + b2 (ix2 0 o) := rfl

/-- The word both programs spell for the recurrence's factor two; it is never evaluated. -/
abbrev two : EReal := Ideal.ofBits .f32 0x40000000#32

/-- The Laplacian applied to one signal. -/
def lap (L : SLap.Idx → EReal) (x : Fin 8192 → EReal) : Fin 8192 → EReal :=
  fun v => ∑ k : Fin 8192, L (ix2 v k) * x k

/-- The Chebyshev recurrence on one signal, orders 0 to 4. -/
def cheb (L : SLap.Idx → EReal) (x : Fin 8192 → EReal) : Fin 5 → Fin 8192 → EReal
  | ⟨0, _⟩ => x
  | ⟨1, _⟩ => lap L x
  | ⟨2, _⟩ => fun v => two * lap L (lap L x) v - x v
  | ⟨3, _⟩ => fun v => two * lap L (fun u => two * lap L (lap L x) u - x u) v - lap L x v
  | ⟨4, _⟩ => fun v => two * lap L (fun w => two * lap L (fun u => two * lap L (lap L x) u - x u) w - lap L x w) v
      - (two * lap L (lap L x) v - x v)

/-- The whole result: at batch `b`, output channel `o`, vertex `v`, the sum over the 320 columns
    `j = channel · 5 + order` of the filtered signal times the weight, plus the bias. -/
def result (inp : SIn.Idx → EReal) (L : SLap.Idx → EReal) (W : SWgt.Idx → EReal) (bias : SBias.Idx → EReal) :
    SOut.Idx → EReal :=
  fun i => (∑ j : Fin 320,
      cheb L (fun u => inp (ix3 ⟨(i 0).val, (i 0).isLt⟩ ⟨j.val / 5, by have := j.isLt; omega⟩ u))
        ⟨j.val % 5, Nat.mod_lt _ (by decide)⟩ ⟨(i 2).val, (i 2).isLt⟩
      * W (ix2 ⟨(i 1).val, (i 1).isLt⟩ j))
    + bias (ix1 ⟨(i 1).val, (i 1).isLt⟩)

end Cert.Cheb

end
-- ==== Proof.KerTerm.lean ====
/-
  The kernel program's result as ONE closed term of its four arguments, at the extended reals: the host operations
  around the five pallas_calls composed with what each call leaves in its output array.

  The input is re-laid as an 8192 × 1024 array of column signals (column = batch · 64 + channel); four recurrence
  steps produce the signals of orders 1 to 4; each array is then viewed as 131072 rows of 64 channels
  (row = vertex · 16 + batch), the weights as five 64 × 128 slabs, and the mixed rows are re-laid to
  batch × output channel × vertex.
-/
import proofs.«169820_j16449724743711_1_alg».proof.Proof.Gen.KernelIdeal
import proofs.«169820_j16449724743711_1_alg».proof.Proof.Spec

noncomputable section

namespace Cert.KernelIdeal.KerTerm

open Idealize.ShloMosaic Cert.KernelIdeal Cert.KernelIdeal.Facts₀ Cert.Cheb

/-- The words the kernel bodies spell for 1, 0 and −1. -/
abbrev wOne : EReal := Ideal.ofBits .f32 0x3F800000#32
abbrev wZero : EReal := Ideal.ofBits .f32 0x00000000#32
abbrev wNegOne : EReal := Ideal.ofBits .f32 0xBF800000#32

/-- Order 0: the input with the vertex axis leading and (batch, channel) flattened into the column. -/
def sig0 (inp : S16x64x8192.Idx → EReal) : S8192x1024.Idx → EReal :=
  shapeCast S8192x1024 (transpose S8192x16x64 [2, 0, 1] inp transposes_S16x64x8192_S8192x16x64_2_0_1)
    shapeCasts_S8192x16x64_S8192x1024

/-- Order 1: `1 · (L · x₀) + 0 · x₀`. -/
def sig1 (inp : S16x64x8192.Idx → EReal) (L : S8192x8192.Idx → EReal) : S8192x1024.Idx → EReal :=
  step wOne wZero L (sig0 inp) (sig0 inp)
/-- Order 2: `2 · (L · x₁) + (−1) · x₀`. -/
def sig2 (inp : S16x64x8192.Idx → EReal) (L : S8192x8192.Idx → EReal) : S8192x1024.Idx → EReal :=
  step two wNegOne L (sig1 inp L) (sig0 inp)
/-- Order 3: `2 · (L · x₂) + (−1) · x₁`. -/
def sig3 (inp : S16x64x8192.Idx → EReal) (L : S8192x8192.Idx → EReal) : S8192x1024.Idx → EReal :=
  step two wNegOne L (sig2 inp L) (sig1 inp L)
/-- Order 4: `2 · (L · x₃) + (−1) · x₂`. -/
def sig4 (inp : S16x64x8192.Idx → EReal) (L : S8192x8192.Idx → EReal) : S8192x1024.Idx → EReal :=
  step two wNegOne L (sig3 inp L) (sig2 inp L)

/-- An array of column signals viewed as rows of 64 channels. -/
def rows (x : S8192x1024.Idx → EReal) : S131072x64.Idx → EReal :=
  shapeCast S131072x64 x shapeCasts_S8192x1024_S131072x64

/-- The weights as five 64 × 128 slabs: `slab k c o = W o (c · 5 + k)`. -/
def slabs (W : S128x320.Idx → EReal) : S5x64x128.Idx → EReal :=
  transpose S5x64x128 [2, 1, 0] (shapeCast S128x64x5 W shapeCasts_S128x320_S128x64x5) transposes_S128x64x5_S5x64x128_2_1_0

/-- The bias as a 1 × 128 row. -/
def biasRow (bias : S128.Idx → EReal) : S1x128.Idx → EReal :=
  shapeCast S1x128 bias shapeCasts_S128_S1x128

/-- The mixed rows, before the final re-layout. -/
def mixed (inp : S16x64x8192.Idx → EReal) (L : S8192x8192.Idx → EReal) (W : S128x320.Idx → EReal)
    (bias : S128.Idx → EReal) : S131072x128.Idx → EReal :=
  mix (rows (sig0 inp)) (rows (sig1 inp L)) (rows (sig2 inp L)) (rows (sig3 inp L)) (rows (sig4 inp L))
    (slabs W) (biasRow bias)

/-- The kernel program's result. -/
def kerTerm (inp : S16x64x8192.Idx → EReal) (L : S8192x8192.Idx → EReal) (W : S128x320.Idx → EReal)
    (bias : S128.Idx → EReal) : S16x128x8192.Idx → EReal :=
  transpose S16x128x8192 [1, 2, 0]
    (shapeCast S8192x16x128 (mixed inp L W bias) shapeCasts_S131072x128_S8192x16x128)
    transposes_S8192x16x128_S16x128x8192_1_2_0

end Cert.KernelIdeal.KerTerm

end
-- ==== Proof.Region0.lean ====
/-
  What pallas_call 0 leaves in its output array, as one function of the arrays it is entered with.

  The body's stored block read at a row and a column (the product's contraction re-indexed over the 8192 columns of
  the left block, the two scalar factors kept as the words the body spells); the three blocks a grid point loads as
  rows of the entry arrays; so the block a point writes back is 256 rows of one recurrence step; the 32 blocks cover
  the 8192 rows.
-/
import proofs.«169820_j16449724743711_1_alg».proof.Proof.Gen.KernelIdeal.Frame
import proofs.«169820_j16449724743711_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Idealize.ShloMosaic Idealize.ShloMosaic.TcCoe Idealize.SL.Sem Idealize.ShloMosaic.ValueIdx
open Cert.KernelIdeal Cert.KernelIdeal.Gen Cert.Cheb
open scoped BigOperators

/-- The factor of the Laplacian product, as the body spells it. -/
abbrev wLap : EReal := Ideal.ofBits .f32 0x3F800000#32
/-- The factor of the previous signal, as the body spells it. -/
abbrev wPrev : EReal := Ideal.ofBits .f32 0x00000000#32

/-! ## The contraction of the body's product, axis by axis -/

theorem lhs_axis0 (i : S256x1024.Idx) (q : dot_S256x8192_S8192x1024_S256x1024_1_0_0_1_n_n.contr.Idx) :
    (dot_S256x8192_S8192x1024_S256x1024_1_0_0_1_n_n.lhsIdx i q 0).val = (i 0).val := by
  unfold DotDims.lhsIdx
  rw [dif_neg (show ¬(0 : Fin S256x8192.rank) ∈ dot_S256x8192_S8192x1024_S256x1024_1_0_0_1_n_n.lhsBatch by decide), dif_pos (show (0 : Fin S256x8192.rank) ∈ dot_S256x8192_S8192x1024_S256x1024_1_0_0_1_n_n.lhsNonContracting by decide)]
  rfl
theorem lhs_axis1 (i : S256x1024.Idx) (q : dot_S256x8192_S8192x1024_S256x1024_1_0_0_1_n_n.contr.Idx) :
    (dot_S256x8192_S8192x1024_S256x1024_1_0_0_1_n_n.lhsIdx i q 1).val = (q ⟨0, by decide⟩).val :=
  dot_S256x8192_S8192x1024_S256x1024_1_0_0_1_n_n.lhsIdx_val_of_single rfl i q
theorem rhs_axis0 (i : S256x1024.Idx) (q : dot_S256x8192_S8192x1024_S256x1024_1_0_0_1_n_n.contr.Idx) :
    (dot_S256x8192_S8192x1024_S256x1024_1_0_0_1_n_n.rhsIdx i q 0).val = (q ⟨0, by decide⟩).val :=
  dot_S256x8192_S8192x1024_S256x1024_1_0_0_1_n_n.rhsIdx_val_of_single rfl i q
theorem rhs_axis1 (i : S256x1024.Idx) (q : dot_S256x8192_S8192x1024_S256x1024_1_0_0_1_n_n.contr.Idx) :
    (dot_S256x8192_S8192x1024_S256x1024_1_0_0_1_n_n.rhsIdx i q 1).val = (i 1).val := by
  unfold DotDims.rhsIdx
  rw [dif_neg (show ¬(1 : Fin S8192x1024.rank) ∈ dot_S256x8192_S8192x1024_S256x1024_1_0_0_1_n_n.rhsBatch by decide), dif_pos (show (1 : Fin S8192x1024.rank) ∈ dot_S256x8192_S8192x1024_S256x1024_1_0_0_1_n_n.rhsNonContracting by decide)]
  rfl

/-- The product's sum over the contraction index is the sum over the 8192 columns of the left block. -/
theorem contr_sum (x0 : FVec Ideal S256x8192 .bf16) (x1 : FVec Ideal S8192x1024 .bf16) (p : Fin 256) (q : Fin 1024) :
    (∑ k : dot_S256x8192_S8192x1024_S256x1024_1_0_0_1_n_n.contr.Idx,
        x0 (dot_S256x8192_S8192x1024_S256x1024_1_0_0_1_n_n.lhsIdx (ix2 p q) k) * x1 (dot_S256x8192_S8192x1024_S256x1024_1_0_0_1_n_n.rhsIdx (ix2 p q) k))
      = ∑ k : Fin 8192, x0 (ix2 p k) * x1 (ix2 k q) := by
  rw [← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have el : dot_S256x8192_S8192x1024_S256x1024_1_0_0_1_n_n.lhsIdx (ix2 p q) ((contrEquiv1 dot_S256x8192_S8192x1024_S256x1024_1_0_0_1_n_n 8192 rfl rfl).symm k) = ix2 p k := funext fun a => Fin.ext (by
    match a with
    | ⟨0, _⟩ => exact lhs_axis0 _ _
    | ⟨1, _⟩ => exact (lhs_axis1 _ _).trans hk)
  have er : dot_S256x8192_S8192x1024_S256x1024_1_0_0_1_n_n.rhsIdx (ix2 p q) ((contrEquiv1 dot_S256x8192_S8192x1024_S256x1024_1_0_0_1_n_n 8192 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block. -/
theorem pay_apply (x0 : Vec Ideal S256x8192 .bf16) (x1 : Vec Ideal S8192x1024 .bf16) (x2 : Vec Ideal S256x1024 .f32)
    (p : Fin 256) (q : Fin 1024) :
    k0_pay1 (F := Ideal) x0 x1 x2 (ix2 p q)
      = wLap * (∑ k : Fin 8192, x0 (ix2 p k) * x1 (ix2 k q)) + wPrev * x2 (ix2 p q) := by
  unfold k0_pay1
  rw [shapeCast_self, shapeCast_self, shapeCast_self]
  refine congrArg₂ (· + ·) (congrArg (wLap * ·) ?_) rfl
  exact (Ideal.matmul_constant_zero_apply dot_S256x8192_S8192x1024_S256x1024_1_0_0_1_n_n none x0 x1 (ix2 p q)).trans (contr_sum x0 x1 p q)

/-! ## One grid point: the block it writes is 256 rows of the recurrence step -/

/-- The body's stored block, when its three loaded blocks are rows `256·b …` of `L`, all of `xc`, and rows
    `256·b …` of `xp`, is rows `256·b …` of the step. -/
theorem pay_rows (L : S8192x8192.Idx → EReal) (xc xp : S8192x1024.Idx → EReal)
    (x0 : Vec Ideal S256x8192 .bf16) (x1 : Vec Ideal S8192x1024 .bf16) (x2 : Vec Ideal S256x1024 .f32) (b : Nat)
    (h0 : ∀ (y : S256x8192.Idx) (i : S8192x8192.Idx), (i 0).val = b * 256 + (y 0).val → (i 1).val = (y 1).val → x0 y = L i)
    (h1 : ∀ y : S8192x1024.Idx, x1 y = xc y)
    (h2 : ∀ (y : S256x1024.Idx) (i : S8192x1024.Idx), (i 0).val = b * 256 + (y 0).val → (i 1).val = (y 1).val → x2 y = xp i)
    (j : S256x1024.Idx) (i : S8192x1024.Idx) (hi0 : (i 0).val = b * 256 + (j 0).val) (hi1 : (i 1).val = (j 1).val) :
    k0_pay1 (F := Ideal) x0 x1 x2 j = step wLap wPrev L xc xp i := by
  obtain ⟨p, q, rfl⟩ : ∃ (p : Fin 256) (q : Fin 1024), j = ix2 p q := ⟨j 0, j 1, eq_ix2 j⟩
  obtain ⟨v, w, rfl⟩ : ∃ (v : Fin 8192) (w : Fin 1024), i = ix2 v w := ⟨i 0, i 1, eq_ix2 i⟩
  rw [pay_apply, step_ix2, h2 (ix2 p q) (ix2 v w) hi0 hi1]
  refine congrArg₂ (· + ·) (congrArg (wLap * ·) (Finset.sum_congr rfl fun k _ => ?_)) rfl
  rw [h0 (ix2 p k) (ix2 v k) hi0 rfl, h1]
  have hw : w = q := Fin.ext hi1
  rw [hw]

theorem zero_off : (![0, 0] : Fin 2 → Nat) = fun _ => 0 := funext fun a => by fin_cases a <;> rfl

/-- The printed index maps over the grid: windows 0, 2 and 3 sit at block row `t`, column block 0; window 1 is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The three entry arrays, at their literal types. -/
abbrev lapArr (c : Dev nD) : S8192x8192.Idx → EReal := V c (Pipeline.arrRef spec0 0)
abbrev curArr (c : Dev nD) : S8192x1024.Idx → EReal := V c (Pipeline.arrRef spec0 1)
abbrev prevArr (c : Dev nD) : S8192x1024.Idx → EReal := V c (Pipeline.arrRef spec0 2)

/-- Window 0's block at point `t` is rows `256·t …` of the Laplacian. -/
theorem lap_block (c : Dev nD) (t : Fin cfg0.N) (y : S256x8192.Idx) (i : S8192x8192.Idx)
    (hi0 : (i 0).val = t.val * 256 + (y 0).val) (hi1 : (i 1).val = (y 1).val) :
    (iblk0 V c 0 t : Vec Ideal S256x8192 .bf16) y = lapArr V c i := by
  obtain ⟨e00, e01, -⟩ := index_facts t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 256 + 1 * (y 0).val = (i 0).val; omega
  | ⟨1, _⟩ => show win0_0.index t (1 : Fin 2) * 8192 + 1 * (y 1).val = (i 1).val; omega

/-- Window 1's block at every point is the whole current signal array. -/
theorem cur_block (c : Dev nD) (t : Fin cfg0.N) (y : S8192x1024.Idx) :
    (iblk0 V c 1 t : Vec Ideal S8192x1024 .bf16) y = curArr V c y := by
  obtain ⟨-, -, e10, e11, -⟩ := index_facts t
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 1024 + 1 * (y 1).val = (y 1).val; omega

/-- Window 2's block at point `t` is rows `256·t …` of the previous signal array. -/
theorem prev_block (c : Dev nD) (t : Fin cfg0.N) (y : S256x1024.Idx) (i : S8192x1024.Idx)
    (hi0 : (i 0).val = t.val * 256 + (y 0).val) (hi1 : (i 1).val = (y 1).val) :
    (iblk0 V c 2 t : Vec Ideal S256x1024 .f32) y = prevArr V c i := by
  obtain ⟨-, -, -, -, e20, e21, -⟩ := index_facts t
  show V c (Pipeline.arrRef spec0 2) (((cfg0.win 2).blk t).view.emb y) = V c (Pipeline.arrRef spec0 2) i
  refine congrArg _ (funext fun a => Fin.ext ?_)
  match a with
  | ⟨0, _⟩ => show win0_2.index t (0 : Fin 2) * 256 + 1 * (y 0).val = (i 0).val; omega
  | ⟨1, _⟩ => show win0_2.index t (1 : Fin 2) * 1024 + 1 * (y 1).val = (i 1).val; omega

/-- What point `t` writes back is block `t` of the recurrence step of the entry arrays. -/
theorem flushed_eq (c : Dev nD) (t : Fin cfg0.N) :
    (dat0 (F := Ideal) V c).flushed 3 t
      = ((cfg0.win 3).blk t).view.read (Elt Ideal) (step wLap wPrev (lapArr V c) (curArr V c) (prevArr V c)) := by
  show (cfg0.win 3).cut (grid0.coords t) ((dat0 V c).after 3 t) = _
  rw [after0_3]
  unfold out0_3
  rw [View.canon_unit_zero zero_off]
  simp only [View.ld_unit_zero (S := S256x8192) zero_off, View.ld_unit_zero (S := S8192x1024) zero_off, View.ld_unit_zero (S := S256x1024) zero_off]
  obtain ⟨-, -, -, -, -, -, e30, e31⟩ := index_facts t
  funext j
  show k0_pay1 (F := Ideal) (iblk0 V c 0 t) (iblk0 V c 1 t) (iblk0 V c 2 t) j
    = step wLap wPrev (lapArr V c) (curArr V c) (prevArr V c) (((cfg0.win 3).blk t).view.emb j)
  refine pay_rows (lapArr V c) (curArr V c) (prevArr V c) (iblk0 V c 0 t) (iblk0 V c 1 t) (iblk0 V c 2 t) t.val
    (lap_block V c t) (cur_block V c t) (prev_block V c t) j (((cfg0.win 3).blk t).view.emb j) ?_ ?_
  · show win0_3.index t (0 : Fin 2) * 256 + 1 * (j 0).val = t.val * 256 + (j 0).val; omega
  · show win0_3.index t (1 : Fin 2) * 1024 + 1 * (j 1).val = (j 1).val; omega

/-! ## The 32 blocks cover the array -/

/-- An index is in point `t`'s block iff each coordinate is in the block's range on its axis. -/
theorem mem_block (t : Fin cfg0.N) (i : S8192x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole (Pipeline.arrRef spec0 3)).slice (win0_3.rect t)).set ↔ _
  rw [View.set_slice_whole, Rect.mem_set_unit]
  exact Iff.rfl

/-- Row `r` of the array is in the block of point `r / 256`. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 32 := N_0
  let t : Fin cfg0.N := ⟨(i 0).val / 256, by show (i 0).val / 256 < grid0.N; omega⟩
  obtain ⟨-, -, -, -, -, -, e30, e31⟩ := index_facts t
  have ht : t.val = (i 0).val / 256 := rfl
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- After the 32 grid points, the output array holds one recurrence step of the entry arrays:
    `α · (L · xc) + β · xp` with the literal words the body spells for `α` and `β`. -/
theorem arr (c : Dev nD) :
    (dat0 (F := Ideal) V c).arrAt 3 cfg0.N
      = step (Ideal.ofBits .f32 0x3F800000#32) (Ideal.ofBits .f32 0x00000000#32) (V c main_v2) (V c main_v3) (V c main_v1) :=
  (dat0 (F := Ideal) V c).arrAt_eq_of_cover 3 (step wLap wPrev (lapArr V c) (curArr V c) (prevArr V c))
    (fun t _ => flushed_eq V c t) covered

end Cert.KernelIdeal.Region0

end
-- ==== Proof.Region1.lean ====
/-
  What pallas_call 1 leaves in its output array, as one function of the arrays it is entered with.

  The body's stored block read at a row and a column (the product's contraction re-indexed over the 8192 columns of
  the left block, the two scalar factors kept as the words the body spells); the three blocks a grid point loads as
  rows of the entry arrays; so the block a point writes back is 256 rows of one recurrence step; the 32 blocks cover
  the 8192 rows.
-/
import proofs.«169820_j16449724743711_1_alg».proof.Proof.Gen.KernelIdeal.Frame
import proofs.«169820_j16449724743711_1_alg».proof.Proof.Spec
import Idealize.ShloMosaic.Lib.Pipeline.Value
import Idealize.ShloMosaic.Lib.ValueIdx
import Idealize.ShloMosaic.PureOps.Ideal.Laws

noncomputable section

namespace Cert.KernelIdeal.Region1

open Idealize.ShloMosaic Idealize.ShloMosaic.TcCoe Idealize.SL.Sem Idealize.ShloMosaic.ValueIdx
open Cert.KernelIdeal Cert.KernelIdeal.Gen Cert.Cheb
open scoped BigOperators

/-- The factor of the Laplacian product, as the body spells it. -/
abbrev wLap : EReal := Ideal.ofBits .f32 0x40000000#32
/-- The factor of the previous signal, as the body spells it. -/
abbrev wPrev : EReal := Ideal.ofBits .f32 0xBF800000#32

/-! ## The contraction of the body's product, axis by axis -/

theorem lhs_axis0 (i : S256x1024.Idx) (q : dot_S256x8192_S8192x1024_S256x1024_1_0_0_1_n_n.contr.Idx) :
    (dot_S256x8192_S8192x1024_S256x1024_1_0_0_1_n_n.lhsIdx i q 0).val = (i 0).val := by
  unfold DotDims.lhsIdx
  rw [dif_neg (show ¬(0 : Fin S256x8192.rank) ∈ dot_S256x8192_S8192x1024_S256x1024_1_0_0_1_n_n.lhsBatch by decide), dif_pos (show (0 : Fin S256x8192.rank) ∈ dot_S256x8192_S8192x1024_S256x1024_1_0_0_1_n_n.lhsNonContracting by decide)]
  rfl
theorem lhs_axis1 (i : S256x1024.Idx) (q : dot_S256x8192_S8192x1024_S256x1024_1_0_0_1_n_n.contr.Idx) :
    (dot_S256x8192_S8192x1024_S256x1024_1_0_0_1_n_n.lhsIdx i q 1).val = (q ⟨0, by decide⟩).val :=
  dot_S256x8192_S8192x1024_S256x1024_1_0_0_1_n_n.lhsIdx_val_of_single rfl i q
theorem rhs_axis0 (i : S256x1024.Idx) (q : dot_S256x8192_S8192x1024_S256x1024_1_0_0_1_n_n.contr.Idx) :
    (dot_S256x8192_S8192x1024_S256x1024_1_0_0_1_n_n.rhsIdx i q 0).val = (q ⟨0, by decide⟩).val :=
  dot_S256x8192_S8192x1024_S256x1024_1_0_0_1_n_n.rhsIdx_val_of_single rfl i q
theorem rhs_axis1 (i : S256x1024.Idx) (q : dot_S256x8192_S8192x1024_S256x1024_1_0_0_1_n_n.contr.Idx) :
    (dot_S256x8192_S8192x1024_S256x1024_1_0_0_1_n_n.rhsIdx i q 1).val = (i 1).val := by
  unfold DotDims.rhsIdx
  rw [dif_neg (show ¬(1 : Fin S8192x1024.rank) ∈ dot_S256x8192_S8192x1024_S256x1024_1_0_0_1_n_n.rhsBatch by decide), dif_pos (show (1 : Fin S8192x1024.rank) ∈ dot_S256x8192_S8192x1024_S256x1024_1_0_0_1_n_n.rhsNonContracting by decide)]
  rfl

/-- The product's sum over the contraction index is the sum over the 8192 columns of the left block. -/
theorem contr_sum (x0 : FVec Ideal S256x8192 .bf16) (x1 : FVec Ideal S8192x1024 .bf16) (p : Fin 256) (q : Fin 1024) :
    (∑ k : dot_S256x8192_S8192x1024_S256x1024_1_0_0_1_n_n.contr.Idx,
        x0 (dot_S256x8192_S8192x1024_S256x1024_1_0_0_1_n_n.lhsIdx (ix2 p q) k) * x1 (dot_S256x8192_S8192x1024_S256x1024_1_0_0_1_n_n.rhsIdx (ix2 p q) k))
      = ∑ k : Fin 8192, x0 (ix2 p k) * x1 (ix2 k q) := by
  rw [← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have el : dot_S256x8192_S8192x1024_S256x1024_1_0_0_1_n_n.lhsIdx (ix2 p q) ((contrEquiv1 dot_S256x8192_S8192x1024_S256x1024_1_0_0_1_n_n 8192 rfl rfl).symm k) = ix2 p k := funext fun a => Fin.ext (by
    match a with
    | ⟨0, _⟩ => exact lhs_axis0 _ _
    | ⟨1, _⟩ => exact (lhs_axis1 _ _).trans hk)
  have er : dot_S256x8192_S8192x1024_S256x1024_1_0_0_1_n_n.rhsIdx (ix2 p q) ((contrEquiv1 dot_S256x8192_S8192x1024_S256x1024_1_0_0_1_n_n 8192 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block. -/
theorem pay_apply (x0 : Vec Ideal S256x8192 .bf16) (x1 : Vec Ideal S8192x1024 .bf16) (x2 : Vec Ideal S256x1024 .f32)
    (p : Fin 256) (q : Fin 1024) :
    k1_pay1 (F := Ideal) x0 x1 x2 (ix2 p q)
      = wLap * (∑ k : Fin 8192, x0 (ix2 p k) * x1 (ix2 k q)) + wPrev * x2 (ix2 p q) := by
  unfold k1_pay1
  rw [shapeCast_self, shapeCast_self, shapeCast_self]
  refine congrArg₂ (· + ·) (congrArg (wLap * ·) ?_) rfl
  exact (Ideal.matmul_constant_zero_apply dot_S256x8192_S8192x1024_S256x1024_1_0_0_1_n_n none x0 x1 (ix2 p q)).trans (contr_sum x0 x1 p q)

/-! ## One grid point: the block it writes is 256 rows of the recurrence step -/

/-- The body's stored block, when its three loaded blocks are rows `256·b …` of `L`, all of `xc`, and rows
    `256·b …` of `xp`, is rows `256·b …` of the step. -/
theorem pay_rows (L : S8192x8192.Idx → EReal) (xc xp : S8192x1024.Idx → EReal)
    (x0 : Vec Ideal S256x8192 .bf16) (x1 : Vec Ideal S8192x1024 .bf16) (x2 : Vec Ideal S256x1024 .f32) (b : Nat)
    (h0 : ∀ (y : S256x8192.Idx) (i : S8192x8192.Idx), (i 0).val = b * 256 + (y 0).val → (i 1).val = (y 1).val → x0 y = L i)
    (h1 : ∀ y : S8192x1024.Idx, x1 y = xc y)
    (h2 : ∀ (y : S256x1024.Idx) (i : S8192x1024.Idx), (i 0).val = b * 256 + (y 0).val → (i 1).val = (y 1).val → x2 y = xp i)
    (j : S256x1024.Idx) (i : S8192x1024.Idx) (hi0 : (i 0).val = b * 256 + (j 0).val) (hi1 : (i 1).val = (j 1).val) :
    k1_pay1 (F := Ideal) x0 x1 x2 j = step wLap wPrev L xc xp i := by
  obtain ⟨p, q, rfl⟩ : ∃ (p : Fin 256) (q : Fin 1024), j = ix2 p q := ⟨j 0, j 1, eq_ix2 j⟩
  obtain ⟨v, w, rfl⟩ : ∃ (v : Fin 8192) (w : Fin 1024), i = ix2 v w := ⟨i 0, i 1, eq_ix2 i⟩
  rw [pay_apply, step_ix2, h2 (ix2 p q) (ix2 v w) hi0 hi1]
  refine congrArg₂ (· + ·) (congrArg (wLap * ·) (Finset.sum_congr rfl fun k _ => ?_)) rfl
  rw [h0 (ix2 p k) (ix2 v k) hi0 rfl, h1]
  have hw : w = q := Fin.ext hi1
  rw [hw]

theorem zero_off : (![0, 0] : Fin 2 → Nat) = fun _ => 0 := funext fun a => by fin_cases a <;> rfl

/-- The printed index maps over the grid: windows 0, 2 and 3 sit at block row `t`, column block 0; window 1 is the whole array. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The three entry arrays, at their literal types. -/
abbrev lapArr (c : Dev nD) : S8192x8192.Idx → EReal := V c (Pipeline.arrRef spec1 0)
abbrev curArr (c : Dev nD) : S8192x1024.Idx → EReal := V c (Pipeline.arrRef spec1 1)
abbrev prevArr (c : Dev nD) : S8192x1024.Idx → EReal := V c (Pipeline.arrRef spec1 2)

/-- Window 0's block at point `t` is rows `256·t …` of the Laplacian. -/
theorem lap_block (c : Dev nD) (t : Fin cfg1.N) (y : S256x8192.Idx) (i : S8192x8192.Idx)
    (hi0 : (i 0).val = t.val * 256 + (y 0).val) (hi1 : (i 1).val = (y 1).val) :
    (iblk1 V c 0 t : Vec Ideal S256x8192 .bf16) y = lapArr V c i := by
  obtain ⟨e00, e01, -⟩ := index_facts t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 256 + 1 * (y 0).val = (i 0).val; omega
  | ⟨1, _⟩ => show win1_0.index t (1 : Fin 2) * 8192 + 1 * (y 1).val = (i 1).val; omega

/-- Window 1's block at every point is the whole current signal array. -/
theorem cur_block (c : Dev nD) (t : Fin cfg1.N) (y : S8192x1024.Idx) :
    (iblk1 V c 1 t : Vec Ideal S8192x1024 .bf16) y = curArr V c y := by
  obtain ⟨-, -, e10, e11, -⟩ := index_facts t
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 8192 + 1 * (y 0).val = (y 0).val; omega
  | ⟨1, _⟩ => show win1_1.index t (1 : Fin 2) * 1024 + 1 * (y 1).val = (y 1).val; omega

/-- Window 2's block at point `t` is rows `256·t …` of the previous signal array. -/
theorem prev_block (c : Dev nD) (t : Fin cfg1.N) (y : S256x1024.Idx) (i : S8192x1024.Idx)
    (hi0 : (i 0).val = t.val * 256 + (y 0).val) (hi1 : (i 1).val = (y 1).val) :
    (iblk1 V c 2 t : Vec Ideal S256x1024 .f32) y = prevArr V c i := by
  obtain ⟨-, -, -, -, e20, e21, -⟩ := index_facts t
  show V c (Pipeline.arrRef spec1 2) (((cfg1.win 2).blk t).view.emb y) = V c (Pipeline.arrRef spec1 2) i
  refine congrArg _ (funext fun a => Fin.ext ?_)
  match a with
  | ⟨0, _⟩ => show win1_2.index t (0 : Fin 2) * 256 + 1 * (y 0).val = (i 0).val; omega
  | ⟨1, _⟩ => show win1_2.index t (1 : Fin 2) * 1024 + 1 * (y 1).val = (i 1).val; omega

/-- What point `t` writes back is block `t` of the recurrence step of the entry arrays. -/
theorem flushed_eq (c : Dev nD) (t : Fin cfg1.N) :
    (dat1 (F := Ideal) V c).flushed 3 t
      = ((cfg1.win 3).blk t).view.read (Elt Ideal) (step wLap wPrev (lapArr V c) (curArr V c) (prevArr V c)) := by
  show (cfg1.win 3).cut (grid1.coords t) ((dat1 V c).after 3 t) = _
  rw [after1_3]
  unfold out1_3
  rw [View.canon_unit_zero zero_off]
  simp only [View.ld_unit_zero (S := S256x8192) zero_off, View.ld_unit_zero (S := S8192x1024) zero_off, View.ld_unit_zero (S := S256x1024) zero_off]
  obtain ⟨-, -, -, -, -, -, e30, e31⟩ := index_facts t
  funext j
  show k1_pay1 (F := Ideal) (iblk1 V c 0 t) (iblk1 V c 1 t) (iblk1 V c 2 t) j
    = step wLap wPrev (lapArr V c) (curArr V c) (prevArr V c) (((cfg1.win 3).blk t).view.emb j)
  refine pay_rows (lapArr V c) (curArr V c) (prevArr V c) (iblk1 V c 0 t) (iblk1 V c 1 t) (iblk1 V c 2 t) t.val
    (lap_block V c t) (cur_block V c t) (prev_block V c t) j (((cfg1.win 3).blk t).view.emb j) ?_ ?_
  · show win1_3.index t (0 : Fin 2) * 256 + 1 * (j 0).val = t.val * 256 + (j 0).val; omega
  · show win1_3.index t (1 : Fin 2) * 1024 + 1 * (j 1).val = (j 1).val; omega

/-! ## The 32 blocks cover the array -/

/-- An index is in point `t`'s block iff each coordinate is in the block's range on its axis. -/
theorem mem_block (t : Fin cfg1.N) (i : S8192x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole (Pipeline.arrRef spec1 3)).slice (win1_3.rect t)).set ↔ _
  rw [View.set_slice_whole, Rect.mem_set_unit]
  exact Iff.rfl

/-- Row `r` of the array is in the block of point `r / 256`. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : grid1.N = 32 := N_1
  let t : Fin cfg1.N := ⟨(i 0).val / 256, by show (i 0).val / 256 < grid1.N; omega⟩
  obtain ⟨-, -, -, -, -, -, e30, e31⟩ := index_facts t
  have ht : t.val = (i 0).val / 256 := rfl
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- After the 32 grid points, the output array holds one recurrence step of the entry arrays:
    `α · (L · xc) + β · xp` with the literal words the body spells for `α` and `β`. -/
theorem arr (c : Dev nD) :
    (dat1 (F := Ideal) V c).arrAt 3 cfg1.N
      = step (Ideal.ofBits .f32 0x40000000#32) (Ideal.ofBits .f32 0xBF800000#32) (V c main_v2) (V c main_v5) (V c main_v1) :=
  (dat1 (F := Ideal) V c).arrAt_eq_of_cover 3 (step wLap wPrev (lapArr V c) (curArr V c) (prevArr V c))
    (fun t _ => flushed_eq V c t) covered

end Cert.KernelIdeal.Region1

end
-- ==== Proof.Region2.lean ====
/-
  What pallas_call 2 leaves in its output array, as one function of the arrays it is entered with.

  The body's stored block read at a row and a column (the product's contraction re-indexed over the 8192 columns of
  the left block, the two scalar factors kept as the words the body spells); the three blocks a grid point loads as
  rows of the entry arrays; so the block a point writes back is 256 rows of one recurrence step; the 32 blocks cover
  the 8192 rows.
-/
import proofs.«169820_j16449724743711_1_alg».proof.Proof.Gen.KernelIdeal.Frame
import proofs.«169820_j16449724743711_1_alg».proof.Proof.Spec
import Idealize.ShloMosaic.Lib.Pipeline.Value
import Idealize.ShloMosaic.Lib.ValueIdx
import Idealize.ShloMosaic.PureOps.Ideal.Laws

noncomputable section

namespace Cert.KernelIdeal.Region2

open Idealize.ShloMosaic Idealize.ShloMosaic.TcCoe Idealize.SL.Sem Idealize.ShloMosaic.ValueIdx
open Cert.KernelIdeal Cert.KernelIdeal.Gen Cert.Cheb
open scoped BigOperators

/-- The factor of the Laplacian product, as the body spells it. -/
abbrev wLap : EReal := Ideal.ofBits .f32 0x40000000#32
/-- The factor of the previous signal, as the body spells it. -/
abbrev wPrev : EReal := Ideal.ofBits .f32 0xBF800000#32

/-! ## The contraction of the body's product, axis by axis -/

theorem lhs_axis0 (i : S256x1024.Idx) (q : dot_S256x8192_S8192x1024_S256x1024_1_0_0_1_n_n.contr.Idx) :
    (dot_S256x8192_S8192x1024_S256x1024_1_0_0_1_n_n.lhsIdx i q 0).val = (i 0).val := by
  unfold DotDims.lhsIdx
  rw [dif_neg (show ¬(0 : Fin S256x8192.rank) ∈ dot_S256x8192_S8192x1024_S256x1024_1_0_0_1_n_n.lhsBatch by decide), dif_pos (show (0 : Fin S256x8192.rank) ∈ dot_S256x8192_S8192x1024_S256x1024_1_0_0_1_n_n.lhsNonContracting by decide)]
  rfl
theorem lhs_axis1 (i : S256x1024.Idx) (q : dot_S256x8192_S8192x1024_S256x1024_1_0_0_1_n_n.contr.Idx) :
    (dot_S256x8192_S8192x1024_S256x1024_1_0_0_1_n_n.lhsIdx i q 1).val = (q ⟨0, by decide⟩).val :=
  dot_S256x8192_S8192x1024_S256x1024_1_0_0_1_n_n.lhsIdx_val_of_single rfl i q
theorem rhs_axis0 (i : S256x1024.Idx) (q : dot_S256x8192_S8192x1024_S256x1024_1_0_0_1_n_n.contr.Idx) :
    (dot_S256x8192_S8192x1024_S256x1024_1_0_0_1_n_n.rhsIdx i q 0).val = (q ⟨0, by decide⟩).val :=
  dot_S256x8192_S8192x1024_S256x1024_1_0_0_1_n_n.rhsIdx_val_of_single rfl i q
theorem rhs_axis1 (i : S256x1024.Idx) (q : dot_S256x8192_S8192x1024_S256x1024_1_0_0_1_n_n.contr.Idx) :
    (dot_S256x8192_S8192x1024_S256x1024_1_0_0_1_n_n.rhsIdx i q 1).val = (i 1).val := by
  unfold DotDims.rhsIdx
  rw [dif_neg (show ¬(1 : Fin S8192x1024.rank) ∈ dot_S256x8192_S8192x1024_S256x1024_1_0_0_1_n_n.rhsBatch by decide), dif_pos (show (1 : Fin S8192x1024.rank) ∈ dot_S256x8192_S8192x1024_S256x1024_1_0_0_1_n_n.rhsNonContracting by decide)]
  rfl

/-- The product's sum over the contraction index is the sum over the 8192 columns of the left block. -/
theorem contr_sum (x0 : FVec Ideal S256x8192 .bf16) (x1 : FVec Ideal S8192x1024 .bf16) (p : Fin 256) (q : Fin 1024) :
    (∑ k : dot_S256x8192_S8192x1024_S256x1024_1_0_0_1_n_n.contr.Idx,
        x0 (dot_S256x8192_S8192x1024_S256x1024_1_0_0_1_n_n.lhsIdx (ix2 p q) k) * x1 (dot_S256x8192_S8192x1024_S256x1024_1_0_0_1_n_n.rhsIdx (ix2 p q) k))
      = ∑ k : Fin 8192, x0 (ix2 p k) * x1 (ix2 k q) := by
  rw [← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have el : dot_S256x8192_S8192x1024_S256x1024_1_0_0_1_n_n.lhsIdx (ix2 p q) ((contrEquiv1 dot_S256x8192_S8192x1024_S256x1024_1_0_0_1_n_n 8192 rfl rfl).symm k) = ix2 p k := funext fun a => Fin.ext (by
    match a with
    | ⟨0, _⟩ => exact lhs_axis0 _ _
    | ⟨1, _⟩ => exact (lhs_axis1 _ _).trans hk)
  have er : dot_S256x8192_S8192x1024_S256x1024_1_0_0_1_n_n.rhsIdx (ix2 p q) ((contrEquiv1 dot_S256x8192_S8192x1024_S256x1024_1_0_0_1_n_n 8192 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block. -/
theorem pay_apply (x0 : Vec Ideal S256x8192 .bf16) (x1 : Vec Ideal S8192x1024 .bf16) (x2 : Vec Ideal S256x1024 .f32)
    (p : Fin 256) (q : Fin 1024) :
    k2_pay1 (F := Ideal) x0 x1 x2 (ix2 p q)
      = wLap * (∑ k : Fin 8192, x0 (ix2 p k) * x1 (ix2 k q)) + wPrev * x2 (ix2 p q) := by
  unfold k2_pay1
  rw [shapeCast_self, shapeCast_self, shapeCast_self]
  refine congrArg₂ (· + ·) (congrArg (wLap * ·) ?_) rfl
  exact (Ideal.matmul_constant_zero_apply dot_S256x8192_S8192x1024_S256x1024_1_0_0_1_n_n none x0 x1 (ix2 p q)).trans (contr_sum x0 x1 p q)

/-! ## One grid point: the block it writes is 256 rows of the recurrence step -/

/-- The body's stored block, when its three loaded blocks are rows `256·b …` of `L`, all of `xc`, and rows
    `256·b …` of `xp`, is rows `256·b …` of the step. -/
theorem pay_rows (L : S8192x8192.Idx → EReal) (xc xp : S8192x1024.Idx → EReal)
    (x0 : Vec Ideal S256x8192 .bf16) (x1 : Vec Ideal S8192x1024 .bf16) (x2 : Vec Ideal S256x1024 .f32) (b : Nat)
    (h0 : ∀ (y : S256x8192.Idx) (i : S8192x8192.Idx), (i 0).val = b * 256 + (y 0).val → (i 1).val = (y 1).val → x0 y = L i)
    (h1 : ∀ y : S8192x1024.Idx, x1 y = xc y)
    (h2 : ∀ (y : S256x1024.Idx) (i : S8192x1024.Idx), (i 0).val = b * 256 + (y 0).val → (i 1).val = (y 1).val → x2 y = xp i)
    (j : S256x1024.Idx) (i : S8192x1024.Idx) (hi0 : (i 0).val = b * 256 + (j 0).val) (hi1 : (i 1).val = (j 1).val) :
    k2_pay1 (F := Ideal) x0 x1 x2 j = step wLap wPrev L xc xp i := by
  obtain ⟨p, q, rfl⟩ : ∃ (p : Fin 256) (q : Fin 1024), j = ix2 p q := ⟨j 0, j 1, eq_ix2 j⟩
  obtain ⟨v, w, rfl⟩ : ∃ (v : Fin 8192) (w : Fin 1024), i = ix2 v w := ⟨i 0, i 1, eq_ix2 i⟩
  rw [pay_apply, step_ix2, h2 (ix2 p q) (ix2 v w) hi0 hi1]
  refine congrArg₂ (· + ·) (congrArg (wLap * ·) (Finset.sum_congr rfl fun k _ => ?_)) rfl
  rw [h0 (ix2 p k) (ix2 v k) hi0 rfl, h1]
  have hw : w = q := Fin.ext hi1
  rw [hw]

theorem zero_off : (![0, 0] : Fin 2 → Nat) = fun _ => 0 := funext fun a => by fin_cases a <;> rfl

/-- The printed index maps over the grid: windows 0, 2 and 3 sit at block row `t`, column block 0; window 1 is the whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The three entry arrays, at their literal types. -/
abbrev lapArr (c : Dev nD) : S8192x8192.Idx → EReal := V c (Pipeline.arrRef spec2 0)
abbrev curArr (c : Dev nD) : S8192x1024.Idx → EReal := V c (Pipeline.arrRef spec2 1)
abbrev prevArr (c : Dev nD) : S8192x1024.Idx → EReal := V c (Pipeline.arrRef spec2 2)

/-- Window 0's block at point `t` is rows `256·t …` of the Laplacian. -/
theorem lap_block (c : Dev nD) (t : Fin cfg2.N) (y : S256x8192.Idx) (i : S8192x8192.Idx)
    (hi0 : (i 0).val = t.val * 256 + (y 0).val) (hi1 : (i 1).val = (y 1).val) :
    (iblk2 V c 0 t : Vec Ideal S256x8192 .bf16) y = lapArr V c i := by
  obtain ⟨e00, e01, -⟩ := index_facts t
  show V c (Pipeline.arrRef spec2 0) (((cfg2.win 0).blk t).view.emb y) = V c (Pipeline.arrRef spec2 0) i
  refine congrArg _ (funext fun a => Fin.ext ?_)
  match a with
  | ⟨0, _⟩ => show win2_0.index t (0 : Fin 2) * 256 + 1 * (y 0).val = (i 0).val; omega
  | ⟨1, _⟩ => show win2_0.index t (1 : Fin 2) * 8192 + 1 * (y 1).val = (i 1).val; omega

/-- Window 1's block at every point is the whole current signal array. -/
theorem cur_block (c : Dev nD) (t : Fin cfg2.N) (y : S8192x1024.Idx) :
    (iblk2 V c 1 t : Vec Ideal S8192x1024 .bf16) y = curArr V c y := by
  obtain ⟨-, -, e10, e11, -⟩ := index_facts t
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 8192 + 1 * (y 0).val = (y 0).val; omega
  | ⟨1, _⟩ => show win2_1.index t (1 : Fin 2) * 1024 + 1 * (y 1).val = (y 1).val; omega

/-- Window 2's block at point `t` is rows `256·t …` of the previous signal array. -/
theorem prev_block (c : Dev nD) (t : Fin cfg2.N) (y : S256x1024.Idx) (i : S8192x1024.Idx)
    (hi0 : (i 0).val = t.val * 256 + (y 0).val) (hi1 : (i 1).val = (y 1).val) :
    (iblk2 V c 2 t : Vec Ideal S256x1024 .f32) y = prevArr V c i := by
  obtain ⟨-, -, -, -, e20, e21, -⟩ := index_facts t
  show V c (Pipeline.arrRef spec2 2) (((cfg2.win 2).blk t).view.emb y) = V c (Pipeline.arrRef spec2 2) i
  refine congrArg _ (funext fun a => Fin.ext ?_)
  match a with
  | ⟨0, _⟩ => show win2_2.index t (0 : Fin 2) * 256 + 1 * (y 0).val = (i 0).val; omega
  | ⟨1, _⟩ => show win2_2.index t (1 : Fin 2) * 1024 + 1 * (y 1).val = (i 1).val; omega

/-- What point `t` writes back is block `t` of the recurrence step of the entry arrays. -/
theorem flushed_eq (c : Dev nD) (t : Fin cfg2.N) :
    (dat2 (F := Ideal) V c).flushed 3 t
      = ((cfg2.win 3).blk t).view.read (Elt Ideal) (step wLap wPrev (lapArr V c) (curArr V c) (prevArr V c)) := by
  show (cfg2.win 3).cut (grid2.coords t) ((dat2 V c).after 3 t) = _
  rw [after2_3]
  unfold out2_3
  rw [View.canon_unit_zero zero_off]
  simp only [View.ld_unit_zero (S := S256x8192) zero_off, View.ld_unit_zero (S := S8192x1024) zero_off, View.ld_unit_zero (S := S256x1024) zero_off]
  obtain ⟨-, -, -, -, -, -, e30, e31⟩ := index_facts t
  funext j
  show k2_pay1 (F := Ideal) (iblk2 V c 0 t) (iblk2 V c 1 t) (iblk2 V c 2 t) j
    = step wLap wPrev (lapArr V c) (curArr V c) (prevArr V c) (((cfg2.win 3).blk t).view.emb j)
  refine pay_rows (lapArr V c) (curArr V c) (prevArr V c) (iblk2 V c 0 t) (iblk2 V c 1 t) (iblk2 V c 2 t) t.val
    (lap_block V c t) (cur_block V c t) (prev_block V c t) j (((cfg2.win 3).blk t).view.emb j) ?_ ?_
  · show win2_3.index t (0 : Fin 2) * 256 + 1 * (j 0).val = t.val * 256 + (j 0).val; omega
  · show win2_3.index t (1 : Fin 2) * 1024 + 1 * (j 1).val = (j 1).val; omega

/-! ## The 32 blocks cover the array -/

/-- An index is in point `t`'s block iff each coordinate is in the block's range on its axis. -/
theorem mem_block (t : Fin cfg2.N) (i : S8192x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole (Pipeline.arrRef spec2 3)).slice (win2_3.rect t)).set ↔ _
  rw [View.set_slice_whole, Rect.mem_set_unit]
  exact Iff.rfl

/-- Row `r` of the array is in the block of point `r / 256`. -/
theorem covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : grid2.N = 32 := N_2
  let t : Fin cfg2.N := ⟨(i 0).val / 256, by show (i 0).val / 256 < grid2.N; omega⟩
  obtain ⟨-, -, -, -, -, -, e30, e31⟩ := index_facts t
  have ht : t.val = (i 0).val / 256 := rfl
  refine ⟨t, flush2_3 t, ?_⟩
  rw [mem_block]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- After the 32 grid points, the output array holds one recurrence step of the entry arrays:
    `α · (L · xc) + β · xp` with the literal words the body spells for `α` and `β`. -/
theorem arr (c : Dev nD) :
    (dat2 (F := Ideal) V c).arrAt 3 cfg2.N
      = step (Ideal.ofBits .f32 0x40000000#32) (Ideal.ofBits .f32 0xBF800000#32) (V c main_v2) (V c main_v7) (V c main_v4) :=
  (dat2 (F := Ideal) V c).arrAt_eq_of_cover 3 (step wLap wPrev (lapArr V c) (curArr V c) (prevArr V c))
    (fun t _ => flushed_eq V c t) covered

end Cert.KernelIdeal.Region2

end
-- ==== Proof.Region3.lean ====
/-
  What pallas_call 3 leaves in its output array, as one function of the arrays it is entered with.

  The body's stored block read at a row and a column (the product's contraction re-indexed over the 8192 columns of
  the left block, the two scalar factors kept as the words the body spells); the three blocks a grid point loads as
  rows of the entry arrays; so the block a point writes back is 256 rows of one recurrence step; the 32 blocks cover
  the 8192 rows.
-/
import proofs.«169820_j16449724743711_1_alg».proof.Proof.Gen.KernelIdeal.Frame
import proofs.«169820_j16449724743711_1_alg».proof.Proof.Spec
import Idealize.ShloMosaic.Lib.Pipeline.Value
import Idealize.ShloMosaic.Lib.ValueIdx
import Idealize.ShloMosaic.PureOps.Ideal.Laws

noncomputable section

namespace Cert.KernelIdeal.Region3

open Idealize.ShloMosaic Idealize.ShloMosaic.TcCoe Idealize.SL.Sem Idealize.ShloMosaic.ValueIdx
open Cert.KernelIdeal Cert.KernelIdeal.Gen Cert.Cheb
open scoped BigOperators

/-- The factor of the Laplacian product, as the body spells it. -/
abbrev wLap : EReal := Ideal.ofBits .f32 0x40000000#32
/-- The factor of the previous signal, as the body spells it. -/
abbrev wPrev : EReal := Ideal.ofBits .f32 0xBF800000#32

/-! ## The contraction of the body's product, axis by axis -/

theorem lhs_axis0 (i : S256x1024.Idx) (q : dot_S256x8192_S8192x1024_S256x1024_1_0_0_1_n_n.contr.Idx) :
    (dot_S256x8192_S8192x1024_S256x1024_1_0_0_1_n_n.lhsIdx i q 0).val = (i 0).val := by
  unfold DotDims.lhsIdx
  rw [dif_neg (show ¬(0 : Fin S256x8192.rank) ∈ dot_S256x8192_S8192x1024_S256x1024_1_0_0_1_n_n.lhsBatch by decide), dif_pos (show (0 : Fin S256x8192.rank) ∈ dot_S256x8192_S8192x1024_S256x1024_1_0_0_1_n_n.lhsNonContracting by decide)]
  rfl
theorem lhs_axis1 (i : S256x1024.Idx) (q : dot_S256x8192_S8192x1024_S256x1024_1_0_0_1_n_n.contr.Idx) :
    (dot_S256x8192_S8192x1024_S256x1024_1_0_0_1_n_n.lhsIdx i q 1).val = (q ⟨0, by decide⟩).val :=
  dot_S256x8192_S8192x1024_S256x1024_1_0_0_1_n_n.lhsIdx_val_of_single rfl i q
theorem rhs_axis0 (i : S256x1024.Idx) (q : dot_S256x8192_S8192x1024_S256x1024_1_0_0_1_n_n.contr.Idx) :
    (dot_S256x8192_S8192x1024_S256x1024_1_0_0_1_n_n.rhsIdx i q 0).val = (q ⟨0, by decide⟩).val :=
  dot_S256x8192_S8192x1024_S256x1024_1_0_0_1_n_n.rhsIdx_val_of_single rfl i q
theorem rhs_axis1 (i : S256x1024.Idx) (q : dot_S256x8192_S8192x1024_S256x1024_1_0_0_1_n_n.contr.Idx) :
    (dot_S256x8192_S8192x1024_S256x1024_1_0_0_1_n_n.rhsIdx i q 1).val = (i 1).val := by
  unfold DotDims.rhsIdx
  rw [dif_neg (show ¬(1 : Fin S8192x1024.rank) ∈ dot_S256x8192_S8192x1024_S256x1024_1_0_0_1_n_n.rhsBatch by decide), dif_pos (show (1 : Fin S8192x1024.rank) ∈ dot_S256x8192_S8192x1024_S256x1024_1_0_0_1_n_n.rhsNonContracting by decide)]
  rfl

/-- The product's sum over the contraction index is the sum over the 8192 columns of the left block. -/
theorem contr_sum (x0 : FVec Ideal S256x8192 .bf16) (x1 : FVec Ideal S8192x1024 .bf16) (p : Fin 256) (q : Fin 1024) :
    (∑ k : dot_S256x8192_S8192x1024_S256x1024_1_0_0_1_n_n.contr.Idx,
        x0 (dot_S256x8192_S8192x1024_S256x1024_1_0_0_1_n_n.lhsIdx (ix2 p q) k) * x1 (dot_S256x8192_S8192x1024_S256x1024_1_0_0_1_n_n.rhsIdx (ix2 p q) k))
      = ∑ k : Fin 8192, x0 (ix2 p k) * x1 (ix2 k q) := by
  rw [← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have el : dot_S256x8192_S8192x1024_S256x1024_1_0_0_1_n_n.lhsIdx (ix2 p q) ((contrEquiv1 dot_S256x8192_S8192x1024_S256x1024_1_0_0_1_n_n 8192 rfl rfl).symm k) = ix2 p k := funext fun a => Fin.ext (by
    match a with
    | ⟨0, _⟩ => exact lhs_axis0 _ _
    | ⟨1, _⟩ => exact (lhs_axis1 _ _).trans hk)
  have er : dot_S256x8192_S8192x1024_S256x1024_1_0_0_1_n_n.rhsIdx (ix2 p q) ((contrEquiv1 dot_S256x8192_S8192x1024_S256x1024_1_0_0_1_n_n 8192 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of its block. -/
theorem pay_apply (x0 : Vec Ideal S256x8192 .bf16) (x1 : Vec Ideal S8192x1024 .bf16) (x2 : Vec Ideal S256x1024 .f32)
    (p : Fin 256) (q : Fin 1024) :
    k3_pay1 (F := Ideal) x0 x1 x2 (ix2 p q)
      = wLap * (∑ k : Fin 8192, x0 (ix2 p k) * x1 (ix2 k q)) + wPrev * x2 (ix2 p q) := by
  unfold k3_pay1
  rw [shapeCast_self, shapeCast_self, shapeCast_self]
  refine congrArg₂ (· + ·) (congrArg (wLap * ·) ?_) rfl
  exact (Ideal.matmul_constant_zero_apply dot_S256x8192_S8192x1024_S256x1024_1_0_0_1_n_n none x0 x1 (ix2 p q)).trans (contr_sum x0 x1 p q)

/-! ## One grid point: the block it writes is 256 rows of the recurrence step -/

/-- The body's stored block, when its three loaded blocks are rows `256·b …` of `L`, all of `xc`, and rows
    `256·b …` of `xp`, is rows `256·b …` of the step. -/
theorem pay_rows (L : S8192x8192.Idx → EReal) (xc xp : S8192x1024.Idx → EReal)
    (x0 : Vec Ideal S256x8192 .bf16) (x1 : Vec Ideal S8192x1024 .bf16) (x2 : Vec Ideal S256x1024 .f32) (b : Nat)
    (h0 : ∀ (y : S256x8192.Idx) (i : S8192x8192.Idx), (i 0).val = b * 256 + (y 0).val → (i 1).val = (y 1).val → x0 y = L i)
    (h1 : ∀ y : S8192x1024.Idx, x1 y = xc y)
    (h2 : ∀ (y : S256x1024.Idx) (i : S8192x1024.Idx), (i 0).val = b * 256 + (y 0).val → (i 1).val = (y 1).val → x2 y = xp i)
    (j : S256x1024.Idx) (i : S8192x1024.Idx) (hi0 : (i 0).val = b * 256 + (j 0).val) (hi1 : (i 1).val = (j 1).val) :
    k3_pay1 (F := Ideal) x0 x1 x2 j = step wLap wPrev L xc xp i := by
  obtain ⟨p, q, rfl⟩ : ∃ (p : Fin 256) (q : Fin 1024), j = ix2 p q := ⟨j 0, j 1, eq_ix2 j⟩
  obtain ⟨v, w, rfl⟩ : ∃ (v : Fin 8192) (w : Fin 1024), i = ix2 v w := ⟨i 0, i 1, eq_ix2 i⟩
  rw [pay_apply, step_ix2, h2 (ix2 p q) (ix2 v w) hi0 hi1]
  refine congrArg₂ (· + ·) (congrArg (wLap * ·) (Finset.sum_congr rfl fun k _ => ?_)) rfl
  rw [h0 (ix2 p k) (ix2 v k) hi0 rfl, h1]
  have hw : w = q := Fin.ext hi1
  rw [hw]

theorem zero_off : (![0, 0] : Fin 2 → Nat) = fun _ => 0 := funext fun a => by fin_cases a <;> rfl

/-- The printed index maps over the grid: windows 0, 2 and 3 sit at block row `t`, column block 0; window 1 is the whole array. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The three entry arrays, at their literal types. -/
abbrev lapArr (c : Dev nD) : S8192x8192.Idx → EReal := V c (Pipeline.arrRef spec3 0)
abbrev curArr (c : Dev nD) : S8192x1024.Idx → EReal := V c (Pipeline.arrRef spec3 1)
abbrev prevArr (c : Dev nD) : S8192x1024.Idx → EReal := V c (Pipeline.arrRef spec3 2)

/-- Window 0's block at point `t` is rows `256·t …` of the Laplacian. -/
theorem lap_block (c : Dev nD) (t : Fin cfg3.N) (y : S256x8192.Idx) (i : S8192x8192.Idx)
    (hi0 : (i 0).val = t.val * 256 + (y 0).val) (hi1 : (i 1).val = (y 1).val) :
    (iblk3 V c 0 t : Vec Ideal S256x8192 .bf16) y = lapArr V c i := by
  obtain ⟨e00, e01, -⟩ := index_facts t
  show V c (Pipeline.arrRef spec3 0) (((cfg3.win 0).blk t).view.emb y) = V c (Pipeline.arrRef spec3 0) i
  refine congrArg _ (funext fun a => Fin.ext ?_)
  match a with
  | ⟨0, _⟩ => show win3_0.index t (0 : Fin 2) * 256 + 1 * (y 0).val = (i 0).val; omega
  | ⟨1, _⟩ => show win3_0.index t (1 : Fin 2) * 8192 + 1 * (y 1).val = (i 1).val; omega

/-- Window 1's block at every point is the whole current signal array. -/
theorem cur_block (c : Dev nD) (t : Fin cfg3.N) (y : S8192x1024.Idx) :
    (iblk3 V c 1 t : Vec Ideal S8192x1024 .bf16) y = curArr V c y := by
  obtain ⟨-, -, e10, e11, -⟩ := index_facts t
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 8192 + 1 * (y 0).val = (y 0).val; omega
  | ⟨1, _⟩ => show win3_1.index t (1 : Fin 2) * 1024 + 1 * (y 1).val = (y 1).val; omega

/-- Window 2's block at point `t` is rows `256·t …` of the previous signal array. -/
theorem prev_block (c : Dev nD) (t : Fin cfg3.N) (y : S256x1024.Idx) (i : S8192x1024.Idx)
    (hi0 : (i 0).val = t.val * 256 + (y 0).val) (hi1 : (i 1).val = (y 1).val) :
    (iblk3 V c 2 t : Vec Ideal S256x1024 .f32) y = prevArr V c i := by
  obtain ⟨-, -, -, -, e20, e21, -⟩ := index_facts t
  show V c (Pipeline.arrRef spec3 2) (((cfg3.win 2).blk t).view.emb y) = V c (Pipeline.arrRef spec3 2) i
  refine congrArg _ (funext fun a => Fin.ext ?_)
  match a with
  | ⟨0, _⟩ => show win3_2.index t (0 : Fin 2) * 256 + 1 * (y 0).val = (i 0).val; omega
  | ⟨1, _⟩ => show win3_2.index t (1 : Fin 2) * 1024 + 1 * (y 1).val = (i 1).val; omega

/-- What point `t` writes back is block `t` of the recurrence step of the entry arrays. -/
theorem flushed_eq (c : Dev nD) (t : Fin cfg3.N) :
    (dat3 (F := Ideal) V c).flushed 3 t
      = ((cfg3.win 3).blk t).view.read (Elt Ideal) (step wLap wPrev (lapArr V c) (curArr V c) (prevArr V c)) := by
  show (cfg3.win 3).cut (grid3.coords t) ((dat3 V c).after 3 t) = _
  rw [after3_3]
  unfold out3_3
  rw [View.canon_unit_zero zero_off]
  simp only [View.ld_unit_zero (S := S256x8192) zero_off, View.ld_unit_zero (S := S8192x1024) zero_off, View.ld_unit_zero (S := S256x1024) zero_off]
  obtain ⟨-, -, -, -, -, -, e30, e31⟩ := index_facts t
  funext j
  show k3_pay1 (F := Ideal) (iblk3 V c 0 t) (iblk3 V c 1 t) (iblk3 V c 2 t) j
    = step wLap wPrev (lapArr V c) (curArr V c) (prevArr V c) (((cfg3.win 3).blk t).view.emb j)
  refine pay_rows (lapArr V c) (curArr V c) (prevArr V c) (iblk3 V c 0 t) (iblk3 V c 1 t) (iblk3 V c 2 t) t.val
    (lap_block V c t) (cur_block V c t) (prev_block V c t) j (((cfg3.win 3).blk t).view.emb j) ?_ ?_
  · show win3_3.index t (0 : Fin 2) * 256 + 1 * (j 0).val = t.val * 256 + (j 0).val; omega
  · show win3_3.index t (1 : Fin 2) * 1024 + 1 * (j 1).val = (j 1).val; omega

/-! ## The 32 blocks cover the array -/

/-- An index is in point `t`'s block iff each coordinate is in the block's range on its axis. -/
theorem mem_block (t : Fin cfg3.N) (i : S8192x1024.Idx) :
    i ∈ ((cfg3.win 3).blk t).view.set ↔ ∀ a : Fin 2, win3_3.index t a * S256x1024.size a ≤ (i a).val ∧ (i a).val < win3_3.index t a * S256x1024.size a + S256x1024.size a := by
  show i ∈ ((View.whole (Pipeline.arrRef spec3 3)).slice (win3_3.rect t)).set ↔ _
  rw [View.set_slice_whole, Rect.mem_set_unit]
  exact Iff.rfl

/-- Row `r` of the array is in the block of point `r / 256`. -/
theorem covered (i : S8192x1024.Idx) :
    ∃ t : Fin cfg3.N, (cfg3.win 3).flush t = true ∧ i ∈ ((cfg3.win 3).blk t).view.set := by
  have hi0 : (i 0).val < 8192 := (i 0).isLt
  have hi1 : (i 1).val < 1024 := (i 1).isLt
  have hN : grid3.N = 32 := N_3
  let t : Fin cfg3.N := ⟨(i 0).val / 256, by show (i 0).val / 256 < grid3.N; omega⟩
  obtain ⟨-, -, -, -, -, -, e30, e31⟩ := index_facts t
  have ht : t.val = (i 0).val / 256 := rfl
  refine ⟨t, flush3_3 t, ?_⟩
  rw [mem_block]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 1024 ≤ (i 1).val ∧ (i 1).val < win3_3.index t (1 : Fin 2) * 1024 + 1024; omega

/-- After the 32 grid points, the output array holds one recurrence step of the entry arrays:
    `α · (L · xc) + β · xp` with the literal words the body spells for `α` and `β`. -/
theorem arr (c : Dev nD) :
    (dat3 (F := Ideal) V c).arrAt 3 cfg3.N
      = step (Ideal.ofBits .f32 0x40000000#32) (Ideal.ofBits .f32 0xBF800000#32) (V c main_v2) (V c main_v9) (V c main_v6) :=
  (dat3 (F := Ideal) V c).arrAt_eq_of_cover 3 (step wLap wPrev (lapArr V c) (curArr V c) (prevArr V c))
    (fun t _ => flushed_eq V c t) covered

end Cert.KernelIdeal.Region3

end
-- ==== Proof.Region4.lean ====
/-
  What the last pallas_call leaves in its output array, as one function of the arrays it is entered with.
-/
import proofs.«169820_j16449724743711_1_alg».proof.Proof.Gen.KernelIdeal.Frame
import proofs.«169820_j16449724743711_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region4

open Idealize.ShloMosaic Idealize.ShloMosaic.TcCoe Idealize.SL.Sem Idealize.ShloMosaic.ValueIdx
open Cert.KernelIdeal Cert.KernelIdeal.Gen Cert.Cheb

variable (V : (c : Dev nD) → (b : Ref sig .tc) → Buf (Elt Ideal) ((c : Thread nD τ).loc b))

/-! ## One 4096 × 64 by 64 × 128 product at a row and a column -/

theorem lhs_row (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs_col (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_row (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_col (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- Into the zero accumulator, the product at row `p` and column `o` is the sum over the 64 contracted positions. -/
theorem product_at (a : FVec Ideal S4096x64 .bf16) (b : FVec Ideal S64x128 .bf16) (p : Fin 4096) (o : Fin 128) :
    matmul dot_S4096x64_S64x128_S4096x128_1_0_0_1_n_n none a b (constant (F := Ideal) S4096x128 .f32 0x00000000#32) (ix2 p o)
      = ∑ k : Fin 64, a (ix2 p k) * b (ix2 k o) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 p o) ((ValueIdx.contrEquiv1 dot_S4096x64_S64x128_S4096x128_1_0_0_1_n_n 64 rfl rfl).symm k) = ix2 p k := funext fun a => Fin.ext (by
    match a with
    | ⟨0, _⟩ => exact lhs_row _ _
    | ⟨1, _⟩ => exact (lhs_col _ _).trans hk)
  have er : dot_S4096x64_S64x128_S4096x128_1_0_0_1_n_n.rhsIdx (ix2 p o) ((ValueIdx.contrEquiv1 dot_S4096x64_S64x128_S4096x128_1_0_0_1_n_n 64 rfl rfl).symm k) = ix2 k o := funext fun a => Fin.ext (by
    match a with
    | ⟨0, _⟩ => exact (rhs_row _ _).trans hk
    | ⟨1, _⟩ => exact rhs_col _ _)
  rw [el, er]

/-- One order's term: a 4096 × 64 block of rows against a 1 × 64 × 128 slab, both passed through the format changes that
    are the identity on extended reals and the slab through the cast that drops its unit axis. -/
theorem term_at (x : Vec Ideal S4096x64 .f32) (w : Vec Ideal S1x64x128 .f32) (p : Fin 4096) (o : Fin 128) :
    matmul dot_S4096x64_S64x128_S4096x128_1_0_0_1_n_n none
        (truncf .bf16 (shapeCast S4096x64 x shapeCasts_S4096x64_S4096x64) bitsLt_bf16_f32)
        (truncf .bf16 (shapeCast S64x128 w shapeCasts_S1x64x128_S64x128) bitsLt_bf16_f32)
        (constant (F := Ideal) S4096x128 .f32 0x00000000#32) (ix2 p o)
      = ∑ k : Fin 64, x (ix2 p k) * w (ix3 0 k o) := by
  rw [product_at]
  refine Finset.sum_congr rfl fun k _ => ?_
  rw [truncf_apply, truncf_apply, shapeCast_self]
  congr 1
  exact shapeCast_apply w shapeCasts_S1x64x128_S64x128 (ix2 k o) (ix3 0 k o)
    (by rw [Shape.rowMajor_val_three, Shape.rowMajor_val_two]; show ((0 : Nat) * 64 + k.val) * 128 + o.val = k.val * 128 + o.val; omega)

/-! ## The body's two payloads at a row and a column -/

/-- The first four orders, accumulated left to right onto the zero splat. -/
theorem first_four_at (v1 : Vec Ideal S4096x64 .f32) (v4 : Vec Ideal S1x64x128 .f32) (v9 : Vec Ideal S4096x64 .f32) (v12 : Vec Ideal S1x64x128 .f32)
    (v17 : Vec Ideal S4096x64 .f32) (v20 : Vec Ideal S1x64x128 .f32) (v25 : Vec Ideal S4096x64 .f32) (v28 : Vec Ideal S1x64x128 .f32)
    (p : Fin 4096) (o : Fin 128) :
    k4_pay2 (F := Ideal) v1 v4 v9 v12 v17 v20 v25 v28 (ix2 p o)
      = (((∑ k : Fin 64, v1 (ix2 p k) * v4 (ix3 0 k o)) + (∑ k : Fin 64, v9 (ix2 p k) * v12 (ix3 0 k o)))
          + (∑ k : Fin 64, v17 (ix2 p k) * v20 (ix3 0 k o))) + (∑ k : Fin 64, v25 (ix2 p k) * v28 (ix3 0 k o)) := by
  unfold k4_pay2
  simp only [addf_apply, term_at, broadcast_apply]
  show (((Ideal.ofBits .f32 0x00000000#32 + _) + _) + _) + _ = _
  rw [Ideal.ofBits_zero_f32, zero_add]

/-- The fifth order added onto what the first four left, then the bias row broadcast down the rows. -/
theorem last_at (v32 : FVec Ideal S4096x128 .f32) (v33 : Vec Ideal S4096x64 .f32) (v36 : Vec Ideal S1x64x128 .f32) (v41 : Vec Ideal S1x128 .f32)
    (p : Fin 4096) (o : Fin 128) :
    k4_pay1 (F := Ideal) v32 v33 v36 v41 (ix2 p o)
      = (v32 (ix2 p o) + ∑ k : Fin 64, v33 (ix2 p k) * v36 (ix3 0 k o)) + v41 (ix2 0 o) := by
  unfold k4_pay1
  simp only [addf_apply, term_at]
  rw [shapeCast_self, shapeCast_self]
  congr 1
  exact broadcastTo_apply v41 broadcasts_S1x128_S4096x128 (ix2 p o) (ix2 0 o) (fun a => by
    match a with
    | ⟨0, _⟩ => rfl
    | ⟨1, _⟩ => rfl)

/-! ## The block the body stores, from the seven blocks it loads -/

theorem zeros2 : (![0, 0] : Fin 2 → Nat) = fun _ => 0 := funext fun a => by fin_cases a <;> rfl

/-- A load of the weight block through the 1 × 64 × 128 rectangle at offsets `[q, 0, 0]` reads slab `q`. -/
theorem slab_read (x5 : Vec Ideal S5x64x128 .f32) (q : Fin 5) (off : Fin 3 → Nat) (inb : ∀ a, off a + S1x64x128.size a ≤ S5x64x128.size a)
    (h0 : off 0 = q.val) (h1 : off 1 = 0) (h2 : off 2 = 0) (k : Fin 64) (o : Fin 128) :
    View.ld x5 (Rect.unit (s := S5x64x128) off S1x64x128.size inb) (ix3 0 k o) = x5 (ix3 q k o) := by
  show x5 _ = x5 _
  refine congrArg x5 (funext fun a => Fin.ext ?_)
  match a with
  | ⟨0, _⟩ => show off 0 + 1 * 0 = q.val; omega
  | ⟨1, _⟩ => show off 1 + 1 * k.val = k.val; omega
  | ⟨2, _⟩ => show off 2 + 1 * o.val = o.val; omega

/-- What the body leaves in the output's buffer at row `p` and column `o`: the five channel sums of the five row blocks
    against the five slabs of the weight block, accumulated left to right, plus the bias row. -/
theorem block_at (x0 x1 x2 x3 x4 : Vec Ideal S4096x64 .f32) (x5 : Vec Ideal S5x64x128 .f32) (x6 : Vec Ideal S1x128 .f32)
    (p : Fin 4096) (o : Fin 128) :
    out4_7 (F := Ideal) x0 x1 x2 x3 x4 x5 x6 (ix2 p o)
      = (((((∑ k : Fin 64, x0 (ix2 p k) * x5 (ix3 0 k o)) + (∑ k : Fin 64, x1 (ix2 p k) * x5 (ix3 1 k o)))
          + (∑ k : Fin 64, x2 (ix2 p k) * x5 (ix3 2 k o))) + (∑ k : Fin 64, x3 (ix2 p k) * x5 (ix3 3 k o)))
          + (∑ k : Fin 64, x4 (ix2 p k) * x5 (ix3 4 k o))) + x6 (ix2 0 o) := by
  unfold out4_7
  rw [View.canon_unit_zero zeros2]
  simp only [View.ld_unit_zero (S := S4096x64) zeros2, View.ld_unit_zero (S := S1x128) zeros2]
  rw [last_at, first_four_at]
  simp only [slab_read x5 0 ![0, 0, 0] inb_S5x64x128_S1x64x128_0_0_0 rfl rfl rfl, slab_read x5 1 ![1, 0, 0] inb_S5x64x128_S1x64x128_1_0_0 rfl rfl rfl,
    slab_read x5 2 ![2, 0, 0] inb_S5x64x128_S1x64x128_2_0_0 rfl rfl rfl, slab_read x5 3 ![3, 0, 0] inb_S5x64x128_S1x64x128_3_0_0 rfl rfl rfl,
    slab_read x5 4 ![4, 0, 0] inb_S5x64x128_S1x64x128_4_0_0 rfl rfl rfl]

/-! ## Each block as part of its array -/

/-- The index maps, decided over the 32 points: the five row windows and the output window sit at block row `t`, the
    weight and bias windows at block zero. -/
theorem index_facts : ∀ t : Fin cfg4.N,
    (win4_0.index t 0 = t.val ∧ win4_0.index t 1 = 0)
    ∧ (win4_1.index t 0 = t.val ∧ win4_1.index t 1 = 0)
    ∧ (win4_2.index t 0 = t.val ∧ win4_2.index t 1 = 0)
    ∧ (win4_3.index t 0 = t.val ∧ win4_3.index t 1 = 0)
    ∧ (win4_4.index t 0 = t.val ∧ win4_4.index t 1 = 0)
    ∧ (win4_5.index t 0 = 0 ∧ win4_5.index t 1 = 0 ∧ win4_5.index t 2 = 0)
    ∧ (win4_6.index t 0 = 0 ∧ win4_6.index t 1 = 0)
    ∧ (win4_7.index t 0 = t.val ∧ win4_7.index t 1 = 0) :=
  (by decide +kernel : ∀ t : Fin grid4.N, _)

/-- Row `p` of a row window's block at point `t` is row `4096 · t + p` of its array. -/
theorem rows0_at (c : Dev nD) (t : Fin cfg4.N) (p : Fin 4096) (k : Fin 64) (r : Fin 131072) (hr : r.val = t.val * 4096 + p.val) :
    (iblk4 (F := Ideal) V c 0 t : Vec Ideal S4096x64 .f32) (ix2 p k) = (V c main_v11 : SRows.Idx → EReal) (ix2 r k) := by
  obtain ⟨e0, e1⟩ := (index_facts t).1
  unfold iblk4
  rw [View.read_apply]
  show V c main_v11 _ = V c main_v11 _
  congr 1
  funext a
  apply Fin.ext
  match a with
  | ⟨0, _⟩ => show win4_0.index t 0 * 4096 + 1 * p.val = r.val; rw [e0, hr]; omega
  | ⟨1, _⟩ => show win4_0.index t 1 * 64 + 1 * k.val = k.val; rw [e1]; omega

theorem rows1_at (c : Dev nD) (t : Fin cfg4.N) (p : Fin 4096) (k : Fin 64) (r : Fin 131072) (hr : r.val = t.val * 4096 + p.val) :
    (iblk4 (F := Ideal) V c 1 t : Vec Ideal S4096x64 .f32) (ix2 p k) = (V c main_v12 : SRows.Idx → EReal) (ix2 r k) := by
  obtain ⟨e0, e1⟩ := (index_facts t).2.1
  unfold iblk4
  rw [View.read_apply]
  show V c main_v12 _ = V c main_v12 _
  congr 1
  funext a
  apply Fin.ext
  match a with
  | ⟨0, _⟩ => show win4_1.index t 0 * 4096 + 1 * p.val = r.val; rw [e0, hr]; omega
  | ⟨1, _⟩ => show win4_1.index t 1 * 64 + 1 * k.val = k.val; rw [e1]; omega

theorem rows2_at (c : Dev nD) (t : Fin cfg4.N) (p : Fin 4096) (k : Fin 64) (r : Fin 131072) (hr : r.val = t.val * 4096 + p.val) :
    (iblk4 (F := Ideal) V c 2 t : Vec Ideal S4096x64 .f32) (ix2 p k) = (V c main_v13 : SRows.Idx → EReal) (ix2 r k) := by
  obtain ⟨e0, e1⟩ := (index_facts t).2.2.1
  unfold iblk4
  rw [View.read_apply]
  show V c main_v13 _ = V c main_v13 _
  congr 1
  funext a
  apply Fin.ext
  match a with
  | ⟨0, _⟩ => show win4_2.index t 0 * 4096 + 1 * p.val = r.val; rw [e0, hr]; omega
  | ⟨1, _⟩ => show win4_2.index t 1 * 64 + 1 * k.val = k.val; rw [e1]; omega

theorem rows3_at (c : Dev nD) (t : Fin cfg4.N) (p : Fin 4096) (k : Fin 64) (r : Fin 131072) (hr : r.val = t.val * 4096 + p.val) :
    (iblk4 (F := Ideal) V c 3 t : Vec Ideal S4096x64 .f32) (ix2 p k) = (V c main_v14 : SRows.Idx → EReal) (ix2 r k) := by
  obtain ⟨e0, e1⟩ := (index_facts t).2.2.2.1
  unfold iblk4
  rw [View.read_apply]
  show V c main_v14 _ = V c main_v14 _
  congr 1
  funext a
  apply Fin.ext
  match a with
  | ⟨0, _⟩ => show win4_3.index t 0 * 4096 + 1 * p.val = r.val; rw [e0, hr]; omega
  | ⟨1, _⟩ => show win4_3.index t 1 * 64 + 1 * k.val = k.val; rw [e1]; omega

theorem rows4_at (c : Dev nD) (t : Fin cfg4.N) (p : Fin 4096) (k : Fin 64) (r : Fin 131072) (hr : r.val = t.val * 4096 + p.val) :
    (iblk4 (F := Ideal) V c 4 t : Vec Ideal S4096x64 .f32) (ix2 p k) = (V c main_v15 : SRows.Idx → EReal) (ix2 r k) := by
  obtain ⟨e0, e1⟩ := (index_facts t).2.2.2.2.1
  unfold iblk4
  rw [View.read_apply]
  show V c main_v15 _ = V c main_v15 _
  congr 1
  funext a
  apply Fin.ext
  match a with
  | ⟨0, _⟩ => show win4_4.index t 0 * 4096 + 1 * p.val = r.val; rw [e0, hr]; omega
  | ⟨1, _⟩ => show win4_4.index t 1 * 64 + 1 * k.val = k.val; rw [e1]; omega

/-- The weight window's block is the whole weight array at every point. -/
theorem weights_at (c : Dev nD) (t : Fin cfg4.N) (q : Fin 5) (k : Fin 64) (o : Fin 128) :
    (iblk4 (F := Ideal) V c 5 t : Vec Ideal S5x64x128 .f32) (ix3 q k o) = (V c main_v17 : SWt.Idx → EReal) (ix3 q k o) := by
  obtain ⟨e0, e1, e2⟩ := (index_facts t).2.2.2.2.2.1
  unfold iblk4
  rw [View.read_apply]
  show V c main_v17 _ = V c main_v17 _
  congr 1
  funext a
  apply Fin.ext
  match a with
  | ⟨0, _⟩ => show win4_5.index t 0 * 5 + 1 * q.val = q.val; rw [e0]; omega
  | ⟨1, _⟩ => show win4_5.index t 1 * 64 + 1 * k.val = k.val; rw [e1]; omega
  | ⟨2, _⟩ => show win4_5.index t 2 * 128 + 1 * o.val = o.val; rw [e2]; omega

/-- The bias window's block is the whole bias row at every point. -/
theorem bias_at (c : Dev nD) (t : Fin cfg4.N) (z : Fin 1) (o : Fin 128) :
    (iblk4 (F := Ideal) V c 6 t : Vec Ideal S1x128 .f32) (ix2 z o) = (V c main_v18 : SB2.Idx → EReal) (ix2 z o) := by
  obtain ⟨e0, e1⟩ := (index_facts t).2.2.2.2.2.2.1
  unfold iblk4
  rw [View.read_apply]
  show V c main_v18 _ = V c main_v18 _
  congr 1
  funext a
  apply Fin.ext
  match a with
  | ⟨0, _⟩ => show win4_6.index t 0 * 1 + 1 * z.val = z.val; rw [e0]; omega
  | ⟨1, _⟩ => show win4_6.index t 1 * 128 + 1 * o.val = o.val; rw [e1]; omega

/-- Row `p` of the output window's block at point `t`, read off a whole array, is row `4096 · t + p` of it. -/
theorem out_block_at (G : SMix.Idx → EReal) (t : Fin cfg4.N) (p : Fin 4096) (o : Fin 128) (r : Fin 131072)
    (hr : r.val = t.val * 4096 + p.val) :
    (((cfg4.win 7).blk t).view.read (Elt Ideal) G : Vec Ideal S4096x128 .f32) (ix2 p o) = G (ix2 r o) := by
  obtain ⟨e0, e1⟩ := (index_facts t).2.2.2.2.2.2.2
  rw [View.read_apply]
  show G _ = G _
  congr 1
  funext a
  apply Fin.ext
  match a with
  | ⟨0, _⟩ => show win4_7.index t 0 * 4096 + 1 * p.val = r.val; rw [e0, hr]; omega
  | ⟨1, _⟩ => show win4_7.index t 1 * 128 + 1 * o.val = o.val; rw [e1]; omega

/-! ## From the 32 blocks to the array -/

/-- What point `t` writes back is rows `4096 · t … 4096 · t + 4095` of the mixed array. -/
theorem flushed_eq (c : Dev nD) (t : Fin cfg4.N) :
    (dat4 (F := Ideal) V c).flushed 7 t
      = ((cfg4.win 7).blk t).view.read (Elt Ideal) (mix (V c main_v11) (V c main_v12) (V c main_v13) (V c main_v14) (V c main_v15) (V c main_v17) (V c main_v18)) := by
  show (cfg4.win 7).cut (grid4.coords t) ((dat4 V c).after 7 t) = _
  rw [after4_7]
  refine funext fun j => ?_
  obtain ⟨p, o, rfl⟩ : ∃ (p : Fin 4096) (o : Fin 128), j = ix2 p o := ⟨j 0, j 1, eq_ix2 j⟩
  have hp : p.val < 4096 := p.isLt
  have ht : t.val < 32 := t.isLt
  refine (block_at (iblk4 V c 0 t) (iblk4 V c 1 t) (iblk4 V c 2 t) (iblk4 V c 3 t) (iblk4 V c 4 t) (iblk4 V c 5 t) (iblk4 V c 6 t) p o).trans ?_
  refine Eq.trans ?_ (out_block_at (mix (V c main_v11) (V c main_v12) (V c main_v13) (V c main_v14) (V c main_v15) (V c main_v17) (V c main_v18)) t p o ⟨t.val * 4096 + p.val, by omega⟩ rfl).symm
  rw [mix_ix2]
  unfold slabAt
  simp only [fun k => rows0_at V c t p k ⟨t.val * 4096 + p.val, by omega⟩ rfl, fun k => rows1_at V c t p k ⟨t.val * 4096 + p.val, by omega⟩ rfl,
    fun k => rows2_at V c t p k ⟨t.val * 4096 + p.val, by omega⟩ rfl, fun k => rows3_at V c t p k ⟨t.val * 4096 + p.val, by omega⟩ rfl,
    fun k => rows4_at V c t p k ⟨t.val * 4096 + p.val, by omega⟩ rfl, weights_at V c t, bias_at V c t]

/-- An index of the output array is in point `t`'s block iff each coordinate is in the block's range on its axis. -/
theorem mem_blk (t : Fin cfg4.N) (i : S131072x128.Idx) :
    i ∈ ((cfg4.win 7).blk t).view.set ↔ ∀ a : Fin 2, win4_7.index t a * S4096x128.size a ≤ (i a).val ∧ (i a).val < win4_7.index t a * S4096x128.size a + S4096x128.size a := by
  show i ∈ ((View.whole main_v19).slice (win4_7.rect t)).set ↔ _
  rw [View.set_slice_whole, Rect.mem_set_unit]
  exact Iff.rfl

/-- Row `r` of the output array is in the block of point `r / 4096`, and every point writes back. -/
theorem covered (i : S131072x128.Idx) : ∃ t : Fin cfg4.N, (cfg4.win 7).flush t = true ∧ i ∈ ((cfg4.win 7).blk t).view.set := by
  have h0 : (i 0).val < 131072 := (i 0).isLt
  have h1 : (i 1).val < 128 := (i 1).isLt
  have hq : (i 0).val / 4096 < 32 := by omega
  refine ⟨⟨(i 0).val / 4096, hq⟩, flush4_7 _, ?_⟩
  obtain ⟨e0, e1⟩ := (index_facts ⟨(i 0).val / 4096, hq⟩).2.2.2.2.2.2.2
  rw [mem_blk]
  intro a
  match a with
  | ⟨0, _⟩ => show win4_7.index ⟨(i 0).val / 4096, hq⟩ 0 * 4096 ≤ (i 0).val ∧ (i 0).val < win4_7.index ⟨(i 0).val / 4096, hq⟩ 0 * 4096 + 4096; rw [e0]; show (i 0).val / 4096 * 4096 ≤ (i 0).val ∧ (i 0).val < (i 0).val / 4096 * 4096 + 4096; omega
  | ⟨1, _⟩ => show win4_7.index ⟨(i 0).val / 4096, hq⟩ 1 * 128 ≤ (i 1).val ∧ (i 1).val < win4_7.index ⟨(i 0).val / 4096, hq⟩ 1 * 128 + 128; rw [e1]; omega

/-- After the 32 grid points, the output array holds, row by row, the five channel sums against the five weight
    slabs accumulated left to right, plus the bias row. -/
theorem arr (c : Dev nD) :
    (dat4 (F := Ideal) V c).arrAt 7 cfg4.N
      = mix (V c main_v11) (V c main_v12) (V c main_v13) (V c main_v14) (V c main_v15) (V c main_v17) (V c main_v18) :=
  (dat4 (F := Ideal) V c).arrAt_eq_of_cover 7 (mix (V c main_v11) (V c main_v12) (V c main_v13) (V c main_v14) (V c main_v15) (V c main_v17) (V c main_v18))
    (fun t _ => flushed_eq V c t) covered

end Cert.KernelIdeal.Region4

end
-- ==== Proof.Fold.lean ====
/-
  The kernel program's result buffer after the whole run, read back through the eleven segments of @main
  (six stretches of host operations around five pallas_calls) to ONE closed term of the four arguments.
-/
import proofs.«169820_j16449724743711_1_alg».proof.Proof.Gen.KernelIdeal.Frame
import proofs.«169820_j16449724743711_1_alg».proof.Proof.KerTerm
import proofs.«169820_j16449724743711_1_alg».proof.Proof.Region0
import proofs.«169820_j16449724743711_1_alg».proof.Proof.Region1
import proofs.«169820_j16449724743711_1_alg».proof.Proof.Region2
import proofs.«169820_j16449724743711_1_alg».proof.Proof.Region3
import proofs.«169820_j16449724743711_1_alg».proof.Proof.Region4
import Idealize.ShloMosaic.Lib.StableHlo.Run

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.KerTerm Cert.Cheb

variable (m : (ℓ : Loc nD τ sig) → Buf (Elt Ideal) ℓ) (ρ : Dev nD → PrngReg)

/-! ## A host stretch leaves every buffer it does not write as it was -/

/-- The first stretch writes only the re-laid input, the converted Laplacian and the converted signals. -/
theorem keep1 (c : Dev nD) (b : Ref sig .tc) (hb : b ≠ main_v0 ∧ b ≠ main_v1 ∧ b ≠ main_v2 ∧ b ≠ main_v3) :
    W1 (F := Ideal) m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- The second stretch writes only the converted order-1 signals. -/
theorem keep3 (c : Dev nD) (b : Ref sig .tc) (hb : b ≠ main_v5) :
    W3 (F := Ideal) m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact StableHlo.devRef_ne_of_ne hb))

/-- The third stretch writes only the converted order-2 signals. -/
theorem keep5 (c : Dev nD) (b : Ref sig .tc) (hb : b ≠ main_v7) :
    W5 (F := Ideal) m ρ c (Proc.devRef .tc b) = W4 m ρ c (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact StableHlo.devRef_ne_of_ne hb))

/-- The fourth stretch writes only the converted order-3 signals. -/
theorem keep7 (c : Dev nD) (b : Ref sig .tc) (hb : b ≠ main_v9) :
    W7 (F := Ideal) m ρ c (Proc.devRef .tc b) = W6 m ρ c (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact StableHlo.devRef_ne_of_ne hb))

/-! ## A call leaves the arrays it only reads as they were: an input window is never written back -/

theorem in2 (c : Dev nD) (w : Fin cfg0.W) (hin : (cfg0.win w).isOut = false) :
    W2 (F := Ideal) m ρ c (Proc.devRef .tc (Pipeline.arrRef spec0 w))
      = W1 m ρ c (Proc.devRef .tc (Pipeline.arrRef spec0 w)) :=
  (W2_arr m ρ c w).trans (((dat0 (V1 m ρ) c).arrAt_in w hin cfg0.N).trans (A_eq0 (V1 m ρ) c w))

theorem in4 (c : Dev nD) (w : Fin cfg1.W) (hin : (cfg1.win w).isOut = false) :
    W4 (F := Ideal) m ρ c (Proc.devRef .tc (Pipeline.arrRef spec1 w))
      = W3 m ρ c (Proc.devRef .tc (Pipeline.arrRef spec1 w)) :=
  (W4_arr m ρ c w).trans (((dat1 (V3 m ρ) c).arrAt_in w hin cfg1.N).trans (A_eq1 (V3 m ρ) c w))

theorem in6 (c : Dev nD) (w : Fin cfg2.W) (hin : (cfg2.win w).isOut = false) :
    W6 (F := Ideal) m ρ c (Proc.devRef .tc (Pipeline.arrRef spec2 w))
      = W5 m ρ c (Proc.devRef .tc (Pipeline.arrRef spec2 w)) :=
  (W6_arr m ρ c w).trans (((dat2 (V5 m ρ) c).arrAt_in w hin cfg2.N).trans (A_eq2 (V5 m ρ) c w))

theorem in8 (c : Dev nD) (w : Fin cfg3.W) (hin : (cfg3.win w).isOut = false) :
    W8 (F := Ideal) m ρ c (Proc.devRef .tc (Pipeline.arrRef spec3 w))
      = W7 m ρ c (Proc.devRef .tc (Pipeline.arrRef spec3 w)) :=
  (W8_arr m ρ c w).trans (((dat3 (V7 m ρ) c).arrAt_in w hin cfg3.N).trans (A_eq3 (V7 m ρ) c w))

/-! ## The first stretch: the input re-laid as column signals, the Laplacian and the signals converted
    (a conversion is the identity at the extended reals) -/

theorem W1_v1 (c : Dev nD) : W1 (F := Ideal) m ρ c (Proc.devRef .tc main_v1) = sig0 (m ((c : Thread nD τ).loc main_arg0)) := by
  show StableHlo.after hostOps0 _ (Proc.devRef .tc main_v1) = _
  after_results
  rfl
theorem W1_v2 (c : Dev nD) : W1 (F := Ideal) m ρ c (Proc.devRef .tc main_v2) = (m ((c : Thread nD τ).loc main_arg1)) := by
  show StableHlo.after hostOps0 _ (Proc.devRef .tc main_v2) = _
  after_results
  rfl
theorem W1_v3 (c : Dev nD) : W1 (F := Ideal) m ρ c (Proc.devRef .tc main_v3) = sig0 (m ((c : Thread nD τ).loc main_arg0)) := by
  show StableHlo.after hostOps0 _ (Proc.devRef .tc main_v3) = _
  after_results
  rfl
theorem W1_arg2 (c : Dev nD) : W1 (F := Ideal) m ρ c (Proc.devRef .tc main_arg2) = (m ((c : Thread nD τ).loc main_arg2)) :=
  keep1 m ρ c main_arg2 (by decide)
theorem W1_arg3 (c : Dev nD) : W1 (F := Ideal) m ρ c (Proc.devRef .tc main_arg3) = (m ((c : Thread nD τ).loc main_arg3)) :=
  keep1 m ρ c main_arg3 (by decide)

/-! ## The first call: order 1 -/

theorem W2_v4 (c : Dev nD) : W2 (F := Ideal) m ρ c (Proc.devRef .tc main_v4) = sig1 (m ((c : Thread nD τ).loc main_arg0)) (m ((c : Thread nD τ).loc main_arg1)) :=
  calc W2 (F := Ideal) m ρ c (Proc.devRef .tc (Pipeline.arrRef spec0 3))
    _ = (dat0 (V1 m ρ) c).arrAt 3 cfg0.N := W2_arr m ρ c 3
    _ = step wOne wZero (W1 m ρ c (Proc.devRef .tc main_v2)) (W1 m ρ c (Proc.devRef .tc main_v3))
          (W1 m ρ c (Proc.devRef .tc main_v1)) := Region0.arr (V1 m ρ) c
    _ = sig1 (m ((c : Thread nD τ).loc main_arg0)) (m ((c : Thread nD τ).loc main_arg1)) := by
      rw [W1_v2, W1_v3, W1_v1]
      rfl
theorem W2_v1 (c : Dev nD) : W2 (F := Ideal) m ρ c (Proc.devRef .tc main_v1) = sig0 (m ((c : Thread nD τ).loc main_arg0)) :=
  (in2 m ρ c 2 rfl).trans (W1_v1 m ρ c)
theorem W2_v2 (c : Dev nD) : W2 (F := Ideal) m ρ c (Proc.devRef .tc main_v2) = (m ((c : Thread nD τ).loc main_arg1)) :=
  (in2 m ρ c 0 rfl).trans (W1_v2 m ρ c)
theorem W2_arg2 (c : Dev nD) : W2 (F := Ideal) m ρ c (Proc.devRef .tc main_arg2) = (m ((c : Thread nD τ).loc main_arg2)) :=
  (W2_of_ne m ρ c main_arg2 (by decide)).trans (W1_arg2 m ρ c)
theorem W2_arg3 (c : Dev nD) : W2 (F := Ideal) m ρ c (Proc.devRef .tc main_arg3) = (m ((c : Thread nD τ).loc main_arg3)) :=
  (W2_of_ne m ρ c main_arg3 (by decide)).trans (W1_arg3 m ρ c)

/-! ## The second stretch converts the order-1 signals -/

theorem W3_v5 (c : Dev nD) : W3 (F := Ideal) m ρ c (Proc.devRef .tc main_v5) = sig1 (m ((c : Thread nD τ).loc main_arg0)) (m ((c : Thread nD τ).loc main_arg1)) := by
  show StableHlo.after hostOps1 _ (Proc.devRef .tc main_v5) = _
  after_results
  exact W2_v4 m ρ c
theorem W3_v1 (c : Dev nD) : W3 (F := Ideal) m ρ c (Proc.devRef .tc main_v1) = sig0 (m ((c : Thread nD τ).loc main_arg0)) :=
  (keep3 m ρ c main_v1 (by decide)).trans (W2_v1 m ρ c)
theorem W3_v2 (c : Dev nD) : W3 (F := Ideal) m ρ c (Proc.devRef .tc main_v2) = (m ((c : Thread nD τ).loc main_arg1)) :=
  (keep3 m ρ c main_v2 (by decide)).trans (W2_v2 m ρ c)
theorem W3_v4 (c : Dev nD) : W3 (F := Ideal) m ρ c (Proc.devRef .tc main_v4) = sig1 (m ((c : Thread nD τ).loc main_arg0)) (m ((c : Thread nD τ).loc main_arg1)) :=
  (keep3 m ρ c main_v4 (by decide)).trans (W2_v4 m ρ c)
theorem W3_arg2 (c : Dev nD) : W3 (F := Ideal) m ρ c (Proc.devRef .tc main_arg2) = (m ((c : Thread nD τ).loc main_arg2)) :=
  (keep3 m ρ c main_arg2 (by decide)).trans (W2_arg2 m ρ c)
theorem W3_arg3 (c : Dev nD) : W3 (F := Ideal) m ρ c (Proc.devRef .tc main_arg3) = (m ((c : Thread nD τ).loc main_arg3)) :=
  (keep3 m ρ c main_arg3 (by decide)).trans (W2_arg3 m ρ c)

/-! ## The second call: order 2 -/

theorem W4_v6 (c : Dev nD) : W4 (F := Ideal) m ρ c (Proc.devRef .tc main_v6) = sig2 (m ((c : Thread nD τ).loc main_arg0)) (m ((c : Thread nD τ).loc main_arg1)) :=
  calc W4 (F := Ideal) m ρ c (Proc.devRef .tc (Pipeline.arrRef spec1 3))
    _ = (dat1 (V3 m ρ) c).arrAt 3 cfg1.N := W4_arr m ρ c 3
    _ = step two wNegOne (W3 m ρ c (Proc.devRef .tc main_v2)) (W3 m ρ c (Proc.devRef .tc main_v5))
          (W3 m ρ c (Proc.devRef .tc main_v1)) := Region1.arr (V3 m ρ) c
    _ = sig2 (m ((c : Thread nD τ).loc main_arg0)) (m ((c : Thread nD τ).loc main_arg1)) := by
      rw [W3_v2, W3_v5, W3_v1]
      rfl
theorem W4_v1 (c : Dev nD) : W4 (F := Ideal) m ρ c (Proc.devRef .tc main_v1) = sig0 (m ((c : Thread nD τ).loc main_arg0)) :=
  (in4 m ρ c 2 rfl).trans (W3_v1 m ρ c)
theorem W4_v2 (c : Dev nD) : W4 (F := Ideal) m ρ c (Proc.devRef .tc main_v2) = (m ((c : Thread nD τ).loc main_arg1)) :=
  (in4 m ρ c 0 rfl).trans (W3_v2 m ρ c)
theorem W4_v4 (c : Dev nD) : W4 (F := Ideal) m ρ c (Proc.devRef .tc main_v4) = sig1 (m ((c : Thread nD τ).loc main_arg0)) (m ((c : Thread nD τ).loc main_arg1)) :=
  (W4_of_ne m ρ c main_v4 (by decide)).trans (W3_v4 m ρ c)
theorem W4_arg2 (c : Dev nD) : W4 (F := Ideal) m ρ c (Proc.devRef .tc main_arg2) = (m ((c : Thread nD τ).loc main_arg2)) :=
  (W4_of_ne m ρ c main_arg2 (by decide)).trans (W3_arg2 m ρ c)
theorem W4_arg3 (c : Dev nD) : W4 (F := Ideal) m ρ c (Proc.devRef .tc main_arg3) = (m ((c : Thread nD τ).loc main_arg3)) :=
  (W4_of_ne m ρ c main_arg3 (by decide)).trans (W3_arg3 m ρ c)

/-! ## The third stretch converts the order-2 signals -/

theorem W5_v7 (c : Dev nD) : W5 (F := Ideal) m ρ c (Proc.devRef .tc main_v7) = sig2 (m ((c : Thread nD τ).loc main_arg0)) (m ((c : Thread nD τ).loc main_arg1)) := by
  show StableHlo.after hostOps2 _ (Proc.devRef .tc main_v7) = _
  after_results
  exact W4_v6 m ρ c
theorem W5_v1 (c : Dev nD) : W5 (F := Ideal) m ρ c (Proc.devRef .tc main_v1) = sig0 (m ((c : Thread nD τ).loc main_arg0)) :=
  (keep5 m ρ c main_v1 (by decide)).trans (W4_v1 m ρ c)
theorem W5_v2 (c : Dev nD) : W5 (F := Ideal) m ρ c (Proc.devRef .tc main_v2) = (m ((c : Thread nD τ).loc main_arg1)) :=
  (keep5 m ρ c main_v2 (by decide)).trans (W4_v2 m ρ c)
theorem W5_v4 (c : Dev nD) : W5 (F := Ideal) m ρ c (Proc.devRef .tc main_v4) = sig1 (m ((c : Thread nD τ).loc main_arg0)) (m ((c : Thread nD τ).loc main_arg1)) :=
  (keep5 m ρ c main_v4 (by decide)).trans (W4_v4 m ρ c)
theorem W5_v6 (c : Dev nD) : W5 (F := Ideal) m ρ c (Proc.devRef .tc main_v6) = sig2 (m ((c : Thread nD τ).loc main_arg0)) (m ((c : Thread nD τ).loc main_arg1)) :=
  (keep5 m ρ c main_v6 (by decide)).trans (W4_v6 m ρ c)
theorem W5_arg2 (c : Dev nD) : W5 (F := Ideal) m ρ c (Proc.devRef .tc main_arg2) = (m ((c : Thread nD τ).loc main_arg2)) :=
  (keep5 m ρ c main_arg2 (by decide)).trans (W4_arg2 m ρ c)
theorem W5_arg3 (c : Dev nD) : W5 (F := Ideal) m ρ c (Proc.devRef .tc main_arg3) = (m ((c : Thread nD τ).loc main_arg3)) :=
  (keep5 m ρ c main_arg3 (by decide)).trans (W4_arg3 m ρ c)

/-! ## The third call: order 3 -/

theorem W6_v8 (c : Dev nD) : W6 (F := Ideal) m ρ c (Proc.devRef .tc main_v8) = sig3 (m ((c : Thread nD τ).loc main_arg0)) (m ((c : Thread nD τ).loc main_arg1)) :=
  calc W6 (F := Ideal) m ρ c (Proc.devRef .tc (Pipeline.arrRef spec2 3))
    _ = (dat2 (V5 m ρ) c).arrAt 3 cfg2.N := W6_arr m ρ c 3
    _ = step two wNegOne (W5 m ρ c (Proc.devRef .tc main_v2)) (W5 m ρ c (Proc.devRef .tc main_v7))
          (W5 m ρ c (Proc.devRef .tc main_v4)) := Region2.arr (V5 m ρ) c
    _ = sig3 (m ((c : Thread nD τ).loc main_arg0)) (m ((c : Thread nD τ).loc main_arg1)) := by
      rw [W5_v2, W5_v7, W5_v4]
      rfl
theorem W6_v2 (c : Dev nD) : W6 (F := Ideal) m ρ c (Proc.devRef .tc main_v2) = (m ((c : Thread nD τ).loc main_arg1)) :=
  (in6 m ρ c 0 rfl).trans (W5_v2 m ρ c)
theorem W6_v4 (c : Dev nD) : W6 (F := Ideal) m ρ c (Proc.devRef .tc main_v4) = sig1 (m ((c : Thread nD τ).loc main_arg0)) (m ((c : Thread nD τ).loc main_arg1)) :=
  (in6 m ρ c 2 rfl).trans (W5_v4 m ρ c)
theorem W6_v1 (c : Dev nD) : W6 (F := Ideal) m ρ c (Proc.devRef .tc main_v1) = sig0 (m ((c : Thread nD τ).loc main_arg0)) :=
  (W6_of_ne m ρ c main_v1 (by decide)).trans (W5_v1 m ρ c)
theorem W6_v6 (c : Dev nD) : W6 (F := Ideal) m ρ c (Proc.devRef .tc main_v6) = sig2 (m ((c : Thread nD τ).loc main_arg0)) (m ((c : Thread nD τ).loc main_arg1)) :=
  (W6_of_ne m ρ c main_v6 (by decide)).trans (W5_v6 m ρ c)
theorem W6_arg2 (c : Dev nD) : W6 (F := Ideal) m ρ c (Proc.devRef .tc main_arg2) = (m ((c : Thread nD τ).loc main_arg2)) :=
  (W6_of_ne m ρ c main_arg2 (by decide)).trans (W5_arg2 m ρ c)
theorem W6_arg3 (c : Dev nD) : W6 (F := Ideal) m ρ c (Proc.devRef .tc main_arg3) = (m ((c : Thread nD τ).loc main_arg3)) :=
  (W6_of_ne m ρ c main_arg3 (by decide)).trans (W5_arg3 m ρ c)

/-! ## The fourth stretch converts the order-3 signals -/

theorem W7_v9 (c : Dev nD) : W7 (F := Ideal) m ρ c (Proc.devRef .tc main_v9) = sig3 (m ((c : Thread nD τ).loc main_arg0)) (m ((c : Thread nD τ).loc main_arg1)) := by
  show StableHlo.after hostOps3 _ (Proc.devRef .tc main_v9) = _
  after_results
  exact W6_v8 m ρ c
theorem W7_v1 (c : Dev nD) : W7 (F := Ideal) m ρ c (Proc.devRef .tc main_v1) = sig0 (m ((c : Thread nD τ).loc main_arg0)) :=
  (keep7 m ρ c main_v1 (by decide)).trans (W6_v1 m ρ c)
theorem W7_v2 (c : Dev nD) : W7 (F := Ideal) m ρ c (Proc.devRef .tc main_v2) = (m ((c : Thread nD τ).loc main_arg1)) :=
  (keep7 m ρ c main_v2 (by decide)).trans (W6_v2 m ρ c)
theorem W7_v4 (c : Dev nD) : W7 (F := Ideal) m ρ c (Proc.devRef .tc main_v4) = sig1 (m ((c : Thread nD τ).loc main_arg0)) (m ((c : Thread nD τ).loc main_arg1)) :=
  (keep7 m ρ c main_v4 (by decide)).trans (W6_v4 m ρ c)
theorem W7_v6 (c : Dev nD) : W7 (F := Ideal) m ρ c (Proc.devRef .tc main_v6) = sig2 (m ((c : Thread nD τ).loc main_arg0)) (m ((c : Thread nD τ).loc main_arg1)) :=
  (keep7 m ρ c main_v6 (by decide)).trans (W6_v6 m ρ c)
theorem W7_v8 (c : Dev nD) : W7 (F := Ideal) m ρ c (Proc.devRef .tc main_v8) = sig3 (m ((c : Thread nD τ).loc main_arg0)) (m ((c : Thread nD τ).loc main_arg1)) :=
  (keep7 m ρ c main_v8 (by decide)).trans (W6_v8 m ρ c)
theorem W7_arg2 (c : Dev nD) : W7 (F := Ideal) m ρ c (Proc.devRef .tc main_arg2) = (m ((c : Thread nD τ).loc main_arg2)) :=
  (keep7 m ρ c main_arg2 (by decide)).trans (W6_arg2 m ρ c)
theorem W7_arg3 (c : Dev nD) : W7 (F := Ideal) m ρ c (Proc.devRef .tc main_arg3) = (m ((c : Thread nD τ).loc main_arg3)) :=
  (keep7 m ρ c main_arg3 (by decide)).trans (W6_arg3 m ρ c)

/-! ## The fourth call: order 4 -/

theorem W8_v10 (c : Dev nD) : W8 (F := Ideal) m ρ c (Proc.devRef .tc main_v10) = sig4 (m ((c : Thread nD τ).loc main_arg0)) (m ((c : Thread nD τ).loc main_arg1)) :=
  calc W8 (F := Ideal) m ρ c (Proc.devRef .tc (Pipeline.arrRef spec3 3))
    _ = (dat3 (V7 m ρ) c).arrAt 3 cfg3.N := W8_arr m ρ c 3
    _ = step two wNegOne (W7 m ρ c (Proc.devRef .tc main_v2)) (W7 m ρ c (Proc.devRef .tc main_v9))
          (W7 m ρ c (Proc.devRef .tc main_v6)) := Region3.arr (V7 m ρ) c
    _ = sig4 (m ((c : Thread nD τ).loc main_arg0)) (m ((c : Thread nD τ).loc main_arg1)) := by
      rw [W7_v2, W7_v9, W7_v6]
      rfl
theorem W8_v6 (c : Dev nD) : W8 (F := Ideal) m ρ c (Proc.devRef .tc main_v6) = sig2 (m ((c : Thread nD τ).loc main_arg0)) (m ((c : Thread nD τ).loc main_arg1)) :=
  (in8 m ρ c 2 rfl).trans (W7_v6 m ρ c)
theorem W8_v1 (c : Dev nD) : W8 (F := Ideal) m ρ c (Proc.devRef .tc main_v1) = sig0 (m ((c : Thread nD τ).loc main_arg0)) :=
  (W8_of_ne m ρ c main_v1 (by decide)).trans (W7_v1 m ρ c)
theorem W8_v4 (c : Dev nD) : W8 (F := Ideal) m ρ c (Proc.devRef .tc main_v4) = sig1 (m ((c : Thread nD τ).loc main_arg0)) (m ((c : Thread nD τ).loc main_arg1)) :=
  (W8_of_ne m ρ c main_v4 (by decide)).trans (W7_v4 m ρ c)
theorem W8_v8 (c : Dev nD) : W8 (F := Ideal) m ρ c (Proc.devRef .tc main_v8) = sig3 (m ((c : Thread nD τ).loc main_arg0)) (m ((c : Thread nD τ).loc main_arg1)) :=
  (W8_of_ne m ρ c main_v8 (by decide)).trans (W7_v8 m ρ c)
theorem W8_arg2 (c : Dev nD) : W8 (F := Ideal) m ρ c (Proc.devRef .tc main_arg2) = (m ((c : Thread nD τ).loc main_arg2)) :=
  (W8_of_ne m ρ c main_arg2 (by decide)).trans (W7_arg2 m ρ c)
theorem W8_arg3 (c : Dev nD) : W8 (F := Ideal) m ρ c (Proc.devRef .tc main_arg3) = (m ((c : Thread nD τ).loc main_arg3)) :=
  (W8_of_ne m ρ c main_arg3 (by decide)).trans (W7_arg3 m ρ c)

/-! ## The fifth stretch: the five arrays of signals viewed as rows, the weights as slabs, the bias as a row -/

theorem W9_v11 (c : Dev nD) : W9 (F := Ideal) m ρ c (Proc.devRef .tc main_v11) = rows (sig0 (m ((c : Thread nD τ).loc main_arg0))) := by
  show StableHlo.after hostOps4 _ (Proc.devRef .tc main_v11) = _
  after_results
  rw [W8_v1]
  rfl

theorem W9_v12 (c : Dev nD) : W9 (F := Ideal) m ρ c (Proc.devRef .tc main_v12) = rows (sig1 (m ((c : Thread nD τ).loc main_arg0)) (m ((c : Thread nD τ).loc main_arg1))) := by
  show StableHlo.after hostOps4 _ (Proc.devRef .tc main_v12) = _
  after_results
  rw [W8_v4]
  rfl

theorem W9_v13 (c : Dev nD) : W9 (F := Ideal) m ρ c (Proc.devRef .tc main_v13) = rows (sig2 (m ((c : Thread nD τ).loc main_arg0)) (m ((c : Thread nD τ).loc main_arg1))) := by
  show StableHlo.after hostOps4 _ (Proc.devRef .tc main_v13) = _
  after_results
  rw [W8_v6]
  rfl

theorem W9_v14 (c : Dev nD) : W9 (F := Ideal) m ρ c (Proc.devRef .tc main_v14) = rows (sig3 (m ((c : Thread nD τ).loc main_arg0)) (m ((c : Thread nD τ).loc main_arg1))) := by
  show StableHlo.after hostOps4 _ (Proc.devRef .tc main_v14) = _
  after_results
  rw [W8_v8]
  rfl

theorem W9_v15 (c : Dev nD) : W9 (F := Ideal) m ρ c (Proc.devRef .tc main_v15) = rows (sig4 (m ((c : Thread nD τ).loc main_arg0)) (m ((c : Thread nD τ).loc main_arg1))) := by
  show StableHlo.after hostOps4 _ (Proc.devRef .tc main_v15) = _
  after_results
  rw [W8_v10]
  rfl

theorem W9_v17 (c : Dev nD) : W9 (F := Ideal) m ρ c (Proc.devRef .tc main_v17) = slabs (m ((c : Thread nD τ).loc main_arg2)) := by
  show StableHlo.after hostOps4 _ (Proc.devRef .tc main_v17) = _
  after_results
  rw [W8_arg2]
  rfl

theorem W9_v18 (c : Dev nD) : W9 (F := Ideal) m ρ c (Proc.devRef .tc main_v18) = biasRow (m ((c : Thread nD τ).loc main_arg3)) := by
  show StableHlo.after hostOps4 _ (Proc.devRef .tc main_v18) = _
  after_results
  rw [W8_arg3]
  rfl

/-! ## The fifth call: the mixed rows -/

theorem W10_v19 (c : Dev nD) :
    W10 (F := Ideal) m ρ c (Proc.devRef .tc main_v19) = mixed (m ((c : Thread nD τ).loc main_arg0)) (m ((c : Thread nD τ).loc main_arg1)) (m ((c : Thread nD τ).loc main_arg2)) (m ((c : Thread nD τ).loc main_arg3)) :=
  calc W10 (F := Ideal) m ρ c (Proc.devRef .tc (Pipeline.arrRef spec4 7))
    _ = (dat4 (V9 m ρ) c).arrAt 7 cfg4.N := W10_arr m ρ c 7
    _ = mix (W9 m ρ c (Proc.devRef .tc main_v11)) (W9 m ρ c (Proc.devRef .tc main_v12)) (W9 m ρ c (Proc.devRef .tc main_v13))
          (W9 m ρ c (Proc.devRef .tc main_v14)) (W9 m ρ c (Proc.devRef .tc main_v15)) (W9 m ρ c (Proc.devRef .tc main_v17))
          (W9 m ρ c (Proc.devRef .tc main_v18)) := Region4.arr (V9 m ρ) c
    _ = mixed (m ((c : Thread nD τ).loc main_arg0)) (m ((c : Thread nD τ).loc main_arg1)) (m ((c : Thread nD τ).loc main_arg2)) (m ((c : Thread nD τ).loc main_arg3)) := by
      rw [W9_v11, W9_v12, W9_v13, W9_v14, W9_v15, W9_v17, W9_v18]
      rfl

/-! ## The last stretch re-lays the mixed rows to batch × output channel × vertex -/

/-- The last boundary's contents at the result buffer are the closed term of the launch memory's arguments. -/
theorem result_eq (c : Dev nD) :
    W11 (F := Ideal) m ρ c (Proc.devRef .tc main_v21)
      = kerTerm (m ((c : Thread nD τ).loc main_arg0)) (m ((c : Thread nD τ).loc main_arg1))
          (m ((c : Thread nD τ).loc main_arg2)) (m ((c : Thread nD τ).loc main_arg3)) := by
  show StableHlo.after hostOps5 _ (Proc.devRef .tc main_v21) = _
  after_results
  rw [W10_v19]
  rfl

end Cert.KernelIdeal.Fold

end
-- ==== Proof.KerMath.lean ====
/-
  The kernel program's closed term is the specification: the layout operations read at an index, the four
  recurrence steps identified with the Chebyshev recurrence on each (batch, channel) signal, and the five
  channel sums regrouped into the one sum over the 320 weight columns.
-/
import proofs.«169820_j16449724743711_1_alg».proof.Proof.KerTerm
import Idealize.ShloMosaic.Lib.Pipeline.Value
import Idealize.ShloMosaic.Lib.ValueLayout

noncomputable section

open scoped BigOperators

namespace Cert.KernelIdeal.KerMath

open Idealize.ShloMosaic Idealize.ShloMosaic.ValueIdx
open Cert.KernelIdeal Cert.KernelIdeal.Facts₀ Cert.KernelIdeal.KerTerm Cert.Cheb

/-! ## The three words

The patterns of 1.0, 0.0 and −1.0 denote the extended reals 1, 0 and −1. -/

theorem wOne_eq : wOne = 1 := by
  simp [wOne, Ideal.ofBits, Ideal.ieee, -EReal.coe_mul]; norm_num

theorem wNegOne_eq : wNegOne = -1 := by
  simp [wNegOne, Ideal.ofBits, Ideal.ieee, -EReal.coe_mul]; norm_num

theorem wZero_eq : wZero = 0 := Ideal.ofBits_zero_f32

/-! ## The layout operations read at an index

Each reshape keeps the row-major position and each transpose permutes the coordinates; with the column of a
signal array written `batch · 64 + channel` and the row of a row array `vertex · 16 + batch`, no division is left. -/

/-- Order 0 at vertex `v` and column `b · 64 + c` is the input at batch `b`, channel `c`, vertex `v`. -/
theorem sig0_at (inp : S16x64x8192.Idx → EReal) (v : Fin 8192) (b : Fin 16) (c : Fin 64) :
    sig0 inp (ix2 v ⟨b.val * 64 + c.val, by omega⟩) = inp (ix3 b c v) := by
  unfold sig0
  refine (shapeCast_apply _ shapeCasts_S8192x16x64_S8192x1024 _ (ix3 v b c) ?_).trans ?_
  · rw [Shape.rowMajor_val_three, Shape.rowMajor_val_two]
    show (v.val * 16 + b.val) * 64 + c.val = v.val * 1024 + (b.val * 64 + c.val)
    omega
  · exact transpose_apply [2, 0, 1] inp transposes_S16x64x8192_S8192x16x64_2_0_1 (ix3 v b c) (ix3 b c v)
      (fun a => match a with
        | ⟨0, _⟩ => rfl
        | ⟨1, _⟩ => rfl
        | ⟨2, _⟩ => rfl)

/-- Row `v · 16 + b`, channel `c` of the row view is vertex `v`, column `b · 64 + c` of the signal array. -/
theorem rows_at (x : S8192x1024.Idx → EReal) (v : Fin 8192) (b : Fin 16) (c : Fin 64) :
    rows x (ix2 ⟨v.val * 16 + b.val, by omega⟩ c) = x (ix2 v ⟨b.val * 64 + c.val, by omega⟩) := by
  unfold rows
  refine shapeCast_apply x shapeCasts_S8192x1024_S131072x64 _ _ ?_
  rw [Shape.rowMajor_val_two, Shape.rowMajor_val_two]
  show v.val * 1024 + (b.val * 64 + c.val) = (v.val * 16 + b.val) * 64 + c.val
  omega

/-- Slab `k` at channel `c`, output channel `o` is the weight at row `o`, column `c · 5 + k`. -/
theorem slabs_at (W : S128x320.Idx → EReal) (k : Fin 5) (c : Fin 64) (o : Fin 128) :
    slabs W (ix3 k c o) = W (ix2 o ⟨c.val * 5 + k.val, by omega⟩) := by
  unfold slabs
  refine (transpose_apply [2, 1, 0] _ transposes_S128x64x5_S5x64x128_2_1_0 (ix3 k c o) (ix3 o c k)
      (fun a => match a with
        | ⟨0, _⟩ => rfl
        | ⟨1, _⟩ => rfl
        | ⟨2, _⟩ => rfl)).trans ?_
  refine shapeCast_apply W shapeCasts_S128x320_S128x64x5 _ _ ?_
  rw [Shape.rowMajor_val_two, Shape.rowMajor_val_three]
  show o.val * 320 + (c.val * 5 + k.val) = (o.val * 64 + c.val) * 5 + k.val
  omega

/-- The bias row at column `o` is the bias at `o`. -/
theorem biasRow_at (bias : S128.Idx → EReal) (o : Fin 128) :
    biasRow bias (ix2 0 o) = bias (ix1 o) := by
  unfold biasRow
  refine shapeCast_apply bias shapeCasts_S128_S1x128 _ _ ?_
  rw [Shape.rowMajor_val_one, Shape.rowMajor_val_two]
  show o.val = 0 * 128 + o.val
  omega

/-- The result at batch `b`, output channel `o`, vertex `v` is the mixed row `v · 16 + b` at column `o`. -/
theorem kerTerm_at (inp : S16x64x8192.Idx → EReal) (L : S8192x8192.Idx → EReal) (W : S128x320.Idx → EReal)
    (bias : S128.Idx → EReal) (b : Fin 16) (o : Fin 128) (v : Fin 8192) :
    kerTerm inp L W bias (ix3 b o v) = mixed inp L W bias (ix2 ⟨v.val * 16 + b.val, by omega⟩ o) := by
  unfold kerTerm
  generalize mixed inp L W bias = y
  refine (transpose_apply [1, 2, 0] _ transposes_S8192x16x128_S16x128x8192_1_2_0 (ix3 b o v) (ix3 v b o)
      (fun a => match a with
        | ⟨0, _⟩ => rfl
        | ⟨1, _⟩ => rfl
        | ⟨2, _⟩ => rfl)).trans ?_
  refine shapeCast_apply y shapeCasts_S131072x128_S8192x16x128 _ _ ?_
  rw [Shape.rowMajor_val_two, Shape.rowMajor_val_three]
  rfl

/-! ## The recurrence, column by column

One step of the array recurrence, read on one column, is one step of the recurrence on that column's signal:
`1 · s + 0 · x = s` and `2 · s + (−1) · x = 2 · s − x` hold for all extended reals, so nothing is asked of the
values. -/

theorem cheb_zero (L : SLap.Idx → EReal) (x : Fin 8192 → EReal) : cheb L x 0 = x := rfl
theorem cheb_one (L : SLap.Idx → EReal) (x : Fin 8192 → EReal) : cheb L x 1 = lap L x := rfl
theorem cheb_two (L : SLap.Idx → EReal) (x : Fin 8192 → EReal) :
    cheb L x 2 = fun v => two * lap L (cheb L x 1) v - cheb L x 0 v := rfl
theorem cheb_three (L : SLap.Idx → EReal) (x : Fin 8192 → EReal) :
    cheb L x 3 = fun v => two * lap L (cheb L x 2) v - cheb L x 1 v := rfl
theorem cheb_four (L : SLap.Idx → EReal) (x : Fin 8192 → EReal) :
    cheb L x 4 = fun v => two * lap L (cheb L x 3) v - cheb L x 2 v := rfl

/-- The first step: `1 · (L · xc) + 0 · xp` on a column where `xc` is the signal `fc` is `L · fc`. -/
theorem step_first (L : SLap.Idx → EReal) (xc xp : SSig.Idx → EReal) (fc : Fin 8192 → EReal) (j : Fin 1024)
    (hc : ∀ u, xc (ix2 u j) = fc u) (v : Fin 8192) :
    step wOne wZero L xc xp (ix2 v j) = lap L fc v := by
  rw [step_ix2, wOne_eq, wZero_eq, one_mul, zero_mul, add_zero]
  exact Finset.sum_congr rfl fun k _ => by rw [hc k]

/-- A later step: `2 · (L · xc) + (−1) · xp` on a column where `xc`, `xp` are the signals `fc`, `fp` is
    `2 · (L · fc) − fp`. -/
theorem step_next (L : SLap.Idx → EReal) (xc xp : SSig.Idx → EReal) (fc fp : Fin 8192 → EReal) (j : Fin 1024)
    (hc : ∀ u, xc (ix2 u j) = fc u) (hp : ∀ u, xp (ix2 u j) = fp u) (v : Fin 8192) :
    step two wNegOne L xc xp (ix2 v j) = two * lap L fc v - fp v := by
  rw [step_ix2, wNegOne_eq, neg_one_mul, ← sub_eq_add_neg, hp v]
  congr 2
  exact Finset.sum_congr rfl fun k _ => by rw [hc k]

section Columns
variable (inp : S16x64x8192.Idx → EReal) (L : S8192x8192.Idx → EReal) (b : Fin 16) (c : Fin 64)

/-- Order 0 on column `b · 64 + c` is the input's signal at batch `b`, channel `c`. -/
theorem sig0_col (v : Fin 8192) :
    sig0 inp (ix2 v ⟨b.val * 64 + c.val, by omega⟩) = cheb L (fun u => inp (ix3 b c u)) 0 v :=
  sig0_at inp v b c

/-- Order 1 on that column is the recurrence's order 1 of that signal. -/
theorem sig1_col (v : Fin 8192) :
    sig1 inp L (ix2 v ⟨b.val * 64 + c.val, by omega⟩) = cheb L (fun u => inp (ix3 b c u)) 1 v := by
  unfold sig1
  exact step_first L _ _ _ _ (fun u => sig0_at inp u b c) v

/-- Order 2. -/
theorem sig2_col (v : Fin 8192) :
    sig2 inp L (ix2 v ⟨b.val * 64 + c.val, by omega⟩) = cheb L (fun u => inp (ix3 b c u)) 2 v := by
  unfold sig2
  rw [cheb_two]
  exact step_next L _ _ _ _ _ (sig1_col inp L b c) (sig0_col inp L b c) v

/-- Order 3. -/
theorem sig3_col (v : Fin 8192) :
    sig3 inp L (ix2 v ⟨b.val * 64 + c.val, by omega⟩) = cheb L (fun u => inp (ix3 b c u)) 3 v := by
  unfold sig3
  rw [cheb_three]
  exact step_next L _ _ _ _ _ (sig2_col inp L b c) (sig1_col inp L b c) v

/-- Order 4. -/
theorem sig4_col (v : Fin 8192) :
    sig4 inp L (ix2 v ⟨b.val * 64 + c.val, by omega⟩) = cheb L (fun u => inp (ix3 b c u)) 4 v := by
  unfold sig4
  rw [cheb_four]
  exact step_next L _ _ _ _ _ (sig3_col inp L b c) (sig2_col inp L b c) v

end Columns

/-! ## The 320 weight columns as 64 channels × 5 orders -/

/-- Column `j` of the weights is `channel · 5 + order`. -/
def colEquiv : Fin 64 × Fin 5 ≃ Fin 320 where
  toFun p := ⟨p.1.val * 5 + p.2.val, by have := p.1.isLt; have := p.2.isLt; omega⟩
  invFun j := (⟨j.val / 5, by have := j.isLt; omega⟩, ⟨j.val % 5, Nat.mod_lt _ (by decide)⟩)
  left_inv p := by
    have h1 := p.1.isLt; have h2 := p.2.isLt
    refine Prod.ext (Fin.ext ?_) (Fin.ext ?_)
    · show (p.1.val * 5 + p.2.val) / 5 = p.1.val; omega
    · show (p.1.val * 5 + p.2.val) % 5 = p.2.val; omega
  right_inv j := by
    refine Fin.ext ?_
    show j.val / 5 * 5 + j.val % 5 = j.val; omega

/-- A sum over the 320 columns is the sum over the orders of the sums over the channels. -/
theorem sum_cols (f : Fin 320 → EReal) :
    ∑ j : Fin 320, f j
      = ∑ k : Fin 5, ∑ c : Fin 64, f ⟨c.val * 5 + k.val, by have := c.isLt; have := k.isLt; omega⟩ := by
  rw [← Equiv.sum_comp colEquiv f, Fintype.sum_prod_type, Finset.sum_comm]
  rfl

/-- The specification at batch `b`, output channel `o`, vertex `v`. -/
theorem result_ix3 (inp : S16x64x8192.Idx → EReal) (L : S8192x8192.Idx → EReal) (W : S128x320.Idx → EReal)
    (bias : S128.Idx → EReal) (b : Fin 16) (o : Fin 128) (v : Fin 8192) :
    result inp L W bias (ix3 b o v)
      = (∑ j : Fin 320, cheb L (fun u => inp (ix3 b ⟨j.val / 5, by have := j.isLt; omega⟩ u))
            ⟨j.val % 5, Nat.mod_lt _ (by decide)⟩ v * W (ix2 o j)) + bias (ix1 o) := rfl

/-- The same with the column sum regrouped by order and channel. -/
theorem result_at (inp : S16x64x8192.Idx → EReal) (L : S8192x8192.Idx → EReal) (W : S128x320.Idx → EReal)
    (bias : S128.Idx → EReal) (b : Fin 16) (o : Fin 128) (v : Fin 8192) :
    result inp L W bias (ix3 b o v)
      = (∑ k : Fin 5, ∑ c : Fin 64, cheb L (fun u => inp (ix3 b c u)) k v
            * W (ix2 o ⟨c.val * 5 + k.val, by have := c.isLt; have := k.isLt; omega⟩))
          + bias (ix1 o) := by
  rw [result_ix3, sum_cols]
  refine congrArg (· + bias (ix1 o)) ?_
  refine Finset.sum_congr rfl fun k _ => Finset.sum_congr rfl fun c _ => ?_
  have key : ∀ (c' : Fin 64) (k' : Fin 5), c' = c → k' = k →
      cheb L (fun u => inp (ix3 b c' u)) k' v = cheb L (fun u => inp (ix3 b c u)) k v := by
    rintro _ _ rfl rfl; rfl
  have hc := c.isLt
  have hk := k.isLt
  exact congrArg (· * W (ix2 o ⟨c.val * 5 + k.val, by omega⟩))
    (key _ _ (Fin.ext (by show (c.val * 5 + k.val) / 5 = c.val; omega))
      (Fin.ext (by show (c.val * 5 + k.val) % 5 = k.val; omega)))

/-- One order's slab sum on row `v · 16 + b`, once the signal array is known on the row's columns. -/
theorem slab_eq (x : S8192x1024.Idx → EReal) (W : S128x320.Idx → EReal) (k : Fin 5) (g : Fin 64 → EReal)
    (v : Fin 8192) (b : Fin 16) (o : Fin 128)
    (hx : ∀ c : Fin 64, x (ix2 v ⟨b.val * 64 + c.val, by omega⟩) = g c) :
    slabAt (rows x) (slabs W) k ⟨v.val * 16 + b.val, by omega⟩ o
      = ∑ c : Fin 64, g c * W (ix2 o ⟨c.val * 5 + k.val, by have := c.isLt; have := k.isLt; omega⟩) := by
  unfold slabAt
  exact Finset.sum_congr rfl fun c _ => by rw [rows_at, slabs_at, hx c]

/-! ## The kernel program's term is the specification -/

theorem kerTerm_eq (inp : S16x64x8192.Idx → EReal) (L : S8192x8192.Idx → EReal) (W : S128x320.Idx → EReal)
    (bias : S128.Idx → EReal) : kerTerm inp L W bias = result inp L W bias := by
  funext i
  obtain ⟨b, o, v, rfl⟩ : ∃ b o v, i = ix3 b o v := ⟨i 0, i 1, i 2, eq_ix3 i⟩
  rw [kerTerm_at, result_at, Fin.sum_univ_five]
  unfold mixed
  rw [mix_ix2, biasRow_at,
    slab_eq (sig0 inp) W 0 _ v b o (fun c => sig0_col inp L b c v),
    slab_eq (sig1 inp L) W 1 _ v b o (fun c => sig1_col inp L b c v),
    slab_eq (sig2 inp L) W 2 _ v b o (fun c => sig2_col inp L b c v),
    slab_eq (sig3 inp L) W 3 _ v b o (fun c => sig3_col inp L b c v),
    slab_eq (sig4 inp L) W 4 _ v b o (fun c => sig4_col inp L b c v)]

end Cert.KernelIdeal.KerMath

end
-- ==== Proof.RefMath.lean ====
/-
  The reference program's result term is the specification, index by index.
-/
import proofs.«169820_j16449724743711_1_alg».proof.Proof.Gen.ReferenceIdeal.Read
import proofs.«169820_j16449724743711_1_alg».proof.Proof.Spec

noncomputable section

open scoped BigOperators

namespace Cert.ReferenceIdeal.RefMath

open Idealize.ShloMosaic Idealize.ShloMosaic.TcCoe Idealize.SL.Sem Idealize.ShloMosaic.ValueIdx
open Cert.ReferenceIdeal Cert.ReferenceIdeal.Gen Cert.Cheb Cert.ReferenceIdeal.Read

/-- The column of the signal array that holds channel `c` of batch entry `b`. -/
abbrev col (c : Fin 64) (b : Fin 16) : Fin 1024 := ⟨c.val * 16 + b.val, by have := c.isLt; have := b.isLt; omega⟩

theorem lidx_sig (v : Fin 8192) (j : Fin 1024) (k : Fin 8192) : lidx_main_v2 (ix2 v j) k = ix2 v k :=
  funext fun a => Fin.ext (by
    match a with
    | ⟨0, _⟩ => rfl
    | ⟨1, _⟩ => rfl)

theorem ridx_sig (v : Fin 8192) (j : Fin 1024) (k : Fin 8192) : ridx_main_v2 (ix2 v j) k = ix2 k j :=
  funext fun a => Fin.ext (by
    match a with
    | ⟨0, _⟩ => rfl
    | ⟨1, _⟩ => rfl)

/-- A product with the Laplacian, read at a row and a column whose signal is known. -/
theorem dot_sig (l : (⟨S8192x8192, .f32⟩ : BufTy).Contents (Elt Ideal)) (y : (⟨S8192x1024, .f32⟩ : BufTy).Contents (Elt Ideal))
    (f : Fin 8192 → EReal) (v : Fin 8192) (j : Fin 1024) (hy : ∀ k : Fin 8192, y (ix2 k j) = f k) :
    (∑ k : Fin 8192, l (lidx_main_v2 (ix2 v j) k) * y (ridx_main_v2 (ix2 v j) k)) = lap l f v := by
  unfold lap
  refine Finset.sum_congr rfl fun k _ => ?_
  rw [lidx_sig, ridx_sig, hy]

theorem sig0 (x0 : (⟨S16x64x8192, .f32⟩ : BufTy).Contents (Elt Ideal)) (b : Fin 16) (c : Fin 64) (v : Fin 8192) :
    val_main_v1 (F := Ideal) x0 (ix2 v (col c b)) = x0 (ix3 b c v) := by
  rw [val_main_v1_apply, val_main_v0_apply]
  refine congrArg x0 (funext fun a => Fin.ext ?_)
  have hb := b.isLt; have hc := c.isLt; have hv := v.isLt
  match a with
  | ⟨0, _⟩ => show (v.val * 1024 + (c.val * 16 + b.val)) % 16 = b.val; omega
  | ⟨1, _⟩ => show (v.val * 1024 + (c.val * 16 + b.val)) / 16 % 64 = c.val; omega
  | ⟨2, _⟩ => show (v.val * 1024 + (c.val * 16 + b.val)) / 1024 = v.val; omega

theorem sig1 (x0 : (⟨S16x64x8192, .f32⟩ : BufTy).Contents (Elt Ideal)) (x1 : (⟨S8192x8192, .f32⟩ : BufTy).Contents (Elt Ideal))
    (b : Fin 16) (c : Fin 64) (v : Fin 8192) :
    val_main_v2 (F := Ideal) x0 x1 (ix2 v (col c b)) = lap x1 (fun u => x0 (ix3 b c u)) v := by
  rw [val_main_v2_apply]
  exact dot_sig x1 _ _ v _ (fun k => sig0 x0 b c k)

theorem two_at (i : S8192x1024.Idx) : val_main_v4 (F := Ideal) i = two := by
  rw [val_main_v4_apply, val_main_cst_apply]; rfl

theorem two_at' (i : S8192x1024.Idx) : val_main_v8 (F := Ideal) i = two := by
  rw [val_main_v8_apply, val_main_cst_0_apply]; rfl

theorem two_at'' (i : S8192x1024.Idx) : val_main_v12 (F := Ideal) i = two := by
  rw [val_main_v12_apply, val_main_cst_1_apply]; rfl

section
variable (x0 : (⟨S16x64x8192, .f32⟩ : BufTy).Contents (Elt Ideal)) (x1 : (⟨S8192x8192, .f32⟩ : BufTy).Contents (Elt Ideal))
  (b : Fin 16) (c : Fin 64) (v : Fin 8192)

theorem lap2 : val_main_v3 (F := Ideal) x0 x1 (ix2 v (col c b)) = lap x1 (lap x1 (fun u => x0 (ix3 b c u))) v := by
  rw [val_main_v3_apply]
  exact dot_sig x1 _ _ v _ (fun k => sig1 x0 x1 b c k)

theorem sig2 : val_main_v6 (F := Ideal) x0 x1 (ix2 v (col c b))
    = two * lap x1 (lap x1 (fun u => x0 (ix3 b c u))) v - x0 (ix3 b c v) := by
  rw [val_main_v6_apply, val_main_v5_apply, two_at, lap2, sig0]; rfl

theorem lap3 : val_main_v7 (F := Ideal) x0 x1 (ix2 v (col c b))
    = lap x1 (fun u => two * lap x1 (lap x1 (fun u => x0 (ix3 b c u))) u - x0 (ix3 b c u)) v := by
  rw [val_main_v7_apply]
  exact dot_sig x1 _ _ v _ (fun k => sig2 x0 x1 b c k)

theorem sig3 : val_main_v10 (F := Ideal) x0 x1 (ix2 v (col c b))
    = two * lap x1 (fun u => two * lap x1 (lap x1 (fun u => x0 (ix3 b c u))) u - x0 (ix3 b c u)) v
        - lap x1 (fun u => x0 (ix3 b c u)) v := by
  rw [val_main_v10_apply, val_main_v9_apply, two_at', lap3, sig1]; rfl

theorem lap4 : val_main_v11 (F := Ideal) x0 x1 (ix2 v (col c b))
    = lap x1 (fun w => two * lap x1 (fun u => two * lap x1 (lap x1 (fun u => x0 (ix3 b c u))) u - x0 (ix3 b c u)) w
        - lap x1 (fun u => x0 (ix3 b c u)) w) v := by
  rw [val_main_v11_apply]
  exact dot_sig x1 _ _ v _ (fun k => sig3 x0 x1 b c k)

theorem sig4 : val_main_v14 (F := Ideal) x0 x1 (ix2 v (col c b))
    = two * lap x1 (fun w => two * lap x1 (fun u => two * lap x1 (lap x1 (fun u => x0 (ix3 b c u))) u - x0 (ix3 b c u)) w
        - lap x1 (fun u => x0 (ix3 b c u)) w) v
      - (two * lap x1 (lap x1 (fun u => x0 (ix3 b c u))) v - x0 (ix3 b c v)) := by
  rw [val_main_v14_apply, val_main_v13_apply, two_at'', lap4, sig2]; rfl

end

/-- The five filtered signal arrays, by order. -/
def sigArr (x0 : (⟨S16x64x8192, .f32⟩ : BufTy).Contents (Elt Ideal)) (x1 : (⟨S8192x8192, .f32⟩ : BufTy).Contents (Elt Ideal)) :
    Fin 5 → (⟨S8192x1024, .f32⟩ : BufTy).Contents (Elt Ideal)
  | ⟨0, _⟩ => val_main_v1 (F := Ideal) x0
  | ⟨1, _⟩ => val_main_v2 (F := Ideal) x0 x1
  | ⟨2, _⟩ => val_main_v6 (F := Ideal) x0 x1
  | ⟨3, _⟩ => val_main_v10 (F := Ideal) x0 x1
  | ⟨4, _⟩ => val_main_v14 (F := Ideal) x0 x1

/-- Array `k`, at vertex `v` and the column of channel `c` of batch entry `b`, is order `k` of the recurrence on that signal. -/
theorem sig_eq (x0 : (⟨S16x64x8192, .f32⟩ : BufTy).Contents (Elt Ideal)) (x1 : (⟨S8192x8192, .f32⟩ : BufTy).Contents (Elt Ideal))
    (b : Fin 16) (c : Fin 64) (v : Fin 8192) (k : Fin 5) :
    sigArr x0 x1 k (ix2 v (col c b)) = cheb x1 (fun u => x0 (ix3 b c u)) k v := by
  match k with
  | ⟨0, _⟩ => exact sig0 x0 b c v
  | ⟨1, _⟩ => exact sig1 x0 x1 b c v
  | ⟨2, _⟩ => exact sig2 x0 x1 b c v
  | ⟨3, _⟩ => exact sig3 x0 x1 b c v
  | ⟨4, _⟩ => exact sig4 x0 x1 b c v

/-- The joined array at order `k` is array `k`: an element of a concatenation along axis 0 of five one-row pieces
    comes from the piece its first coordinate names. -/
theorem cat_at (x0 : (⟨S16x64x8192, .f32⟩ : BufTy).Contents (Elt Ideal)) (x1 : (⟨S8192x8192, .f32⟩ : BufTy).Contents (Elt Ideal))
    (k : Fin 5) (v : Fin 8192) (j : Fin 1024) :
    val_main_v20 (F := Ideal) x0 x1 (ix3 k v j) = sigArr x0 x1 k (ix2 v j) := by
  have hi : ∀ (J : S5x8192x1024.Idx) (b : Fin S1x8192x1024.rank), b.cast (rfl : S1x8192x1024.rank = S5x8192x1024.rank) ≠ (0 : Fin S5x8192x1024.rank) →
      ((ix3 (0 : Fin 1) v j : S1x8192x1024.Idx) b).val = ((ix3 (J 0) v j : S5x8192x1024.Idx) (b.cast rfl)).val := fun J b hb => by
    match b, hb with
    | ⟨0, _⟩, hb => exact absurd rfl hb
    | ⟨1, _⟩, _ => rfl
    | ⟨2, _⟩, _ => rfl
  unfold val_main_v20
  match k with
  | ⟨0, _⟩ =>
    have e : idx_main_v15 (ix3 (0 : Fin 1) v j) = ix2 v j := funext fun a => Fin.ext (by
      match a with
      | ⟨0, _⟩ => rfl
      | ⟨1, _⟩ => rfl)
    refine (concatenate_apply_piece (0 : Fin S5x8192x1024.rank) _ _ (ix3 0 v j) 0 ?_ S1x8192x1024 (val_main_v15 (F := Ideal) x0) ?_ rfl 0 ?_
      (ix3 0 v j) (hi (ix3 0 v j)) ?_).trans ?_
    · show (0 : Nat) < 5; decide
    · rfl
    · rfl
    · rfl
    · exact (val_main_v15_apply x0 _).trans (congrArg (val_main_v1 (F := Ideal) x0) e)
  | ⟨1, _⟩ =>
    have e : idx_main_v16 (ix3 (0 : Fin 1) v j) = ix2 v j := funext fun a => Fin.ext (by
      match a with
      | ⟨0, _⟩ => rfl
      | ⟨1, _⟩ => rfl)
    refine (concatenate_apply_piece (0 : Fin S5x8192x1024.rank) _ _ (ix3 1 v j) 1 ?_ S1x8192x1024 (val_main_v16 (F := Ideal) x0 x1) ?_ rfl 1 ?_
      (ix3 0 v j) (hi (ix3 1 v j)) ?_).trans ?_
    · show (1 : Nat) < 5; decide
    · rfl
    · rfl
    · rfl
    · exact (val_main_v16_apply x0 x1 _).trans (congrArg (val_main_v2 (F := Ideal) x0 x1) e)
  | ⟨2, _⟩ =>
    have e : idx_main_v17 (ix3 (0 : Fin 1) v j) = ix2 v j := funext fun a => Fin.ext (by
      match a with
      | ⟨0, _⟩ => rfl
      | ⟨1, _⟩ => rfl)
    refine (concatenate_apply_piece (0 : Fin S5x8192x1024.rank) _ _ (ix3 2 v j) 2 ?_ S1x8192x1024 (val_main_v17 (F := Ideal) x0 x1) ?_ rfl 2 ?_
      (ix3 0 v j) (hi (ix3 2 v j)) ?_).trans ?_
    · show (2 : Nat) < 5; decide
    · rfl
    · rfl
    · rfl
    · exact (val_main_v17_apply x0 x1 _).trans (congrArg (val_main_v6 (F := Ideal) x0 x1) e)
  | ⟨3, _⟩ =>
    have e : idx_main_v18 (ix3 (0 : Fin 1) v j) = ix2 v j := funext fun a => Fin.ext (by
      match a with
      | ⟨0, _⟩ => rfl
      | ⟨1, _⟩ => rfl)
    refine (concatenate_apply_piece (0 : Fin S5x8192x1024.rank) _ _ (ix3 3 v j) 3 ?_ S1x8192x1024 (val_main_v18 (F := Ideal) x0 x1) ?_ rfl 3 ?_
      (ix3 0 v j) (hi (ix3 3 v j)) ?_).trans ?_
    · show (3 : Nat) < 5; decide
    · rfl
    · rfl
    · rfl
    · exact (val_main_v18_apply x0 x1 _).trans (congrArg (val_main_v10 (F := Ideal) x0 x1) e)
  | ⟨4, _⟩ =>
    have e : idx_main_v19 (ix3 (0 : Fin 1) v j) = ix2 v j := funext fun a => Fin.ext (by
      match a with
      | ⟨0, _⟩ => rfl
      | ⟨1, _⟩ => rfl)
    refine (concatenate_apply_piece (0 : Fin S5x8192x1024.rank) _ _ (ix3 4 v j) 4 ?_ S1x8192x1024 (val_main_v19 (F := Ideal) x0 x1) ?_ rfl 4 ?_
      (ix3 0 v j) (hi (ix3 4 v j)) ?_).trans ?_
    · show (4 : Nat) < 5; decide
    · rfl
    · rfl
    · rfl
    · exact (val_main_v19_apply x0 x1 _).trans (congrArg (val_main_v14 (F := Ideal) x0 x1) e)

/-- The row of the mixed array that holds vertex `v` of batch entry `b`. -/
abbrev row (b : Fin 16) (v : Fin 8192) : Fin 131072 := ⟨b.val * 8192 + v.val, by have := b.isLt; have := v.isLt; omega⟩

/-- The 131072 × 320 array of filtered signals, at the row of `(b, v)` and column `j = channel · 5 + order`,
    is array `j % 5` at vertex `v` and the column of channel `j / 5` of batch entry `b`. -/
theorem lay_at (x0 : (⟨S16x64x8192, .f32⟩ : BufTy).Contents (Elt Ideal)) (x1 : (⟨S8192x8192, .f32⟩ : BufTy).Contents (Elt Ideal))
    (b : Fin 16) (v : Fin 8192) (j : Fin 320) :
    val_main_v23 (F := Ideal) x0 x1 (ix2 (row b v) j)
      = sigArr x0 x1 ⟨j.val % 5, Nat.mod_lt _ (by decide)⟩ (ix2 v (col ⟨j.val / 5, by have := j.isLt; omega⟩ b)) := by
  have hb := b.isLt; have hv := v.isLt; have hj := j.isLt
  have e23 : idx_main_v23 (ix2 (row b v) j)
      = ix4 b v (⟨j.val / 5, by omega⟩ : Fin 64) (⟨j.val % 5, Nat.mod_lt _ (by decide)⟩ : Fin 5) := funext fun a => Fin.ext (by
    match a with
    | ⟨0, _⟩ => show ((b.val * 8192 + v.val) * 320 + j.val) / 2621440 = b.val; omega
    | ⟨1, _⟩ => show ((b.val * 8192 + v.val) * 320 + j.val) / 320 % 8192 = v.val; omega
    | ⟨2, _⟩ => show ((b.val * 8192 + v.val) * 320 + j.val) / 5 % 64 = j.val / 5; omega
    | ⟨3, _⟩ => show ((b.val * 8192 + v.val) * 320 + j.val) % 5 = j.val % 5; omega)
  have e22 : ∀ (c : Fin 64) (k : Fin 5), idx_main_v22 (ix4 b v c k) = ix4 k v c b := fun c k => funext fun a => Fin.ext (by
    match a with
    | ⟨0, _⟩ => rfl
    | ⟨1, _⟩ => rfl
    | ⟨2, _⟩ => rfl
    | ⟨3, _⟩ => rfl)
  have e21 : ∀ (c : Fin 64) (k : Fin 5), idx_main_v21 (ix4 k v c b) = ix3 k v (col c b) := fun c k => funext fun a => Fin.ext (by
    have hc := c.isLt; have hk := k.isLt
    match a with
    | ⟨0, _⟩ => show (((k.val * 8192 + v.val) * 64 + c.val) * 16 + b.val) / 8388608 = k.val; omega
    | ⟨1, _⟩ => show (((k.val * 8192 + v.val) * 64 + c.val) * 16 + b.val) / 1024 % 8192 = v.val; omega
    | ⟨2, _⟩ => show (((k.val * 8192 + v.val) * 64 + c.val) * 16 + b.val) % 1024 = c.val * 16 + b.val; omega)
  rw [val_main_v23_apply, e23, val_main_v22_apply, e22, val_main_v21_apply, e21, cat_at]

/-- The reference's result at batch entry `b`, output channel `o`, vertex `v`. -/
theorem out_at (x0 : (⟨S16x64x8192, .f32⟩ : BufTy).Contents (Elt Ideal)) (x1 : (⟨S8192x8192, .f32⟩ : BufTy).Contents (Elt Ideal))
    (x2 : (⟨S128x320, .f32⟩ : BufTy).Contents (Elt Ideal)) (x3 : (⟨S128, .f32⟩ : BufTy).Contents (Elt Ideal))
    (b : Fin 16) (o : Fin 128) (v : Fin 8192) :
    val_main_v30 (F := Ideal) x0 x1 x2 x3 (ix3 b o v) = result x0 x1 x2 x3 (ix3 b o v) := by
  have hb := b.isLt; have ho := o.isLt; have hv := v.isLt
  have e30 : idx_main_v30 (ix3 b o v) = ix3 b v o := funext fun a => Fin.ext (by
    match a with
    | ⟨0, _⟩ => rfl
    | ⟨1, _⟩ => rfl
    | ⟨2, _⟩ => rfl)
  have e29 : idx_main_v29 (ix3 b v o) = ix2 (row b v) o := funext fun a => Fin.ext (by
    match a with
    | ⟨0, _⟩ => show ((b.val * 8192 + v.val) * 128 + o.val) / 128 = b.val * 8192 + v.val; omega
    | ⟨1, _⟩ => show ((b.val * 8192 + v.val) * 128 + o.val) % 128 = o.val; omega)
  have e27 : idx_main_v27 (ix2 (row b v) o) = ix2 (0 : Fin 1) o := funext fun a => Fin.ext (by
    match a with
    | ⟨0, _⟩ => rfl
    | ⟨1, _⟩ => rfl)
  have e26 : idx_main_v26 (ix2 (0 : Fin 1) o) = ix1 o := funext fun a => Fin.ext (by
    match a with
    | ⟨0, _⟩ => rfl)
  have el : ∀ j : Fin 320, lidx_main_v25 (ix2 (row b v) o) j = ix2 (row b v) j := fun j => funext fun a => Fin.ext (by
    match a with
    | ⟨0, _⟩ => rfl
    | ⟨1, _⟩ => rfl)
  have er : ∀ j : Fin 320, ridx_main_v25 (ix2 (row b v) o) j = ix2 j o := fun j => funext fun a => Fin.ext (by
    match a with
    | ⟨0, _⟩ => rfl
    | ⟨1, _⟩ => rfl)
  have e24 : ∀ j : Fin 320, idx_main_v24 (ix2 j o) = ix2 o j := fun j => funext fun a => Fin.ext (by
    match a with
    | ⟨0, _⟩ => rfl
    | ⟨1, _⟩ => rfl)
  rw [val_main_v30_apply, e30, val_main_v29_apply, e29, val_main_v28_apply, val_main_v25_apply, val_main_v27_apply, e27,
    val_main_v26_apply, e26]
  show (∑ j : Fin 320, _) + x3 (ix1 o)
    = (∑ j : Fin 320, cheb x1 (fun u => x0 (ix3 b ⟨j.val / 5, by have := j.isLt; omega⟩ u))
        ⟨j.val % 5, Nat.mod_lt _ (by decide)⟩ v * x2 (ix2 o j)) + x3 (ix1 o)
  congr 1
  refine Finset.sum_congr rfl fun j _ => ?_
  rw [el, er, lay_at, sig_eq, val_main_v24_apply, e24]

theorem res_eq (m : (ℓ : Loc nD τ sig) → Buf (Elt Ideal) ℓ) (c : Dev nD) :
    Cert.ReferenceIdeal.Value.res_main_v30 (F := Ideal) m c
      = result (m ((c.tc : Thread nD τ).loc main_arg0)) (m ((c.tc : Thread nD τ).loc main_arg1))
          (m ((c.tc : Thread nD τ).loc main_arg2)) (m ((c.tc : Thread nD τ).loc main_arg3)) := by
  rw [show Cert.ReferenceIdeal.Value.res_main_v30 (F := Ideal) m c = _ from val_main_v30_eq m c]
  funext i
  obtain ⟨b, o, v, rfl⟩ : ∃ (b : Fin 16) (o : Fin 128) (v : Fin 8192), i = ix3 b o v := ⟨i 0, i 1, i 2, eq_ix3 i⟩
  exact out_at _ _ _ _ b o v

end Cert.ReferenceIdeal.RefMath

end
-- ==== Proof.lean ====
/-
  A graph convolution by Chebyshev polynomials of a Laplacian, orders 0 to 4, followed by a linear mixing of the
  64 × 5 filtered channels into 128 output channels plus a bias.

  The kernel program runs the recurrence `x₁ = 1·(L·x₀) + 0·x₀`, `xₖ₊₁ = 2·(L·xₖ) + (−1)·xₖ₋₁` in four pallas_calls on an
  8192 × 1024 array whose column is batch · 64 + channel, then mixes in a fifth call, five 64-channel matrix
  products accumulated one after the other. The reference runs `x₁ = L·x₀`, `xₖ₊₁ = 2·(L·xₖ) − xₖ₋₁` on an array whose
  column is channel · 16 + batch, stacks the five arrays and mixes with ONE 320-column matrix product.

  Over the extended reals the two agree without any finiteness: `1·a = a`, `0·a = 0`, `(−1)·a = −a` and
  `a + (−b) = a − b` hold for every extended real, the Laplacian acts on each column by itself, so relabelling the
  columns commutes with the recurrence, and the one sum over 320 columns `channel · 5 + order` is the five sums
  over 64 channels regrouped (addition of extended reals is commutative and associative).

  Both programs' results are shown equal to one specification (`Cert.Cheb.result`): the kernel's through the
  contents of its buffers at each boundary between host operations and pallas_calls, the reference's through
  its operations read at an index.
-/
import proofs.«169820_j16449724743711_1_alg».proof.Defs
import proofs.«169820_j16449724743711_1_alg».proof.Proof.Gen.Kernel
import proofs.«169820_j16449724743711_1_alg».proof.Proof.Gen.Kernel.Skeleton
import proofs.«169820_j16449724743711_1_alg».proof.Proof.Gen.Kernel.Launch
import proofs.«169820_j16449724743711_1_alg».proof.Proof.Gen.Kernel.Points
import proofs.«169820_j16449724743711_1_alg».proof.Proof.Gen.Kernel.Frame
import proofs.«169820_j16449724743711_1_alg».proof.Proof.Gen.KernelIdeal
import proofs.«169820_j16449724743711_1_alg».proof.Proof.Gen.KernelIdeal.Skeleton
import proofs.«169820_j16449724743711_1_alg».proof.Proof.Gen.KernelIdeal.Launch
import proofs.«169820_j16449724743711_1_alg».proof.Proof.Gen.KernelIdeal.Points
import proofs.«169820_j16449724743711_1_alg».proof.Proof.Gen.KernelIdeal.Frame
import proofs.«169820_j16449724743711_1_alg».proof.Proof.Gen.ReferenceIdeal
import proofs.«169820_j16449724743711_1_alg».proof.Proof.Gen.Pre_finite_inputs
import proofs.«169820_j16449724743711_1_alg».proof.Proof.Gen.ReferenceIdeal.Run
import proofs.«169820_j16449724743711_1_alg».proof.Proof.Gen.ReferenceIdeal.Read
import proofs.«169820_j16449724743711_1_alg».proof.Proof.KernelRun
import proofs.«169820_j16449724743711_1_alg».proof.Proof.Fold
import proofs.«169820_j16449724743711_1_alg».proof.Proof.KerMath
import proofs.«169820_j16449724743711_1_alg».proof.Proof.RefMath
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends with its result at the specification of its arguments. -/
theorem kernel_value (m : (ℓ : Loc Cert.KernelIdeal.nD Cert.KernelIdeal.τ Cert.KernelIdeal.sig) → Buf (Elt Ideal) ℓ)
    (c : Dev Cert.KernelIdeal.nD) (ρ : Dev Cert.KernelIdeal.nD → PrngReg) :
    Cert.KernelIdeal.Gen.W11 (F := Ideal) m ρ c (Proc.devRef .tc Cert.KernelIdeal.main_v21)
      = Cert.Cheb.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.Fold.result_eq m ρ c).trans (Cert.KernelIdeal.KerMath.kerTerm_eq _ _ _ _)

/-- From memories agreeing on the arguments both programs end with the specification of those arguments. -/
theorem algebraic : Cert.algebraic_KernelIdeal_ReferenceIdeal := by
  intro m ρ m' ρ' _ hagree
  refine ⟨fun c => Cert.Cheb.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (kernel_value m c ρ), (h c).2⟩)
      (Cert.KernelIdeal.ValueRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefMath.res_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
